-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1x64 : Shape := ⟨2, ![1, 64]⟩
abbrev S1 : Shape := ⟨1, ![1]⟩
abbrev S1x1 : Shape := ⟨2, ![1, 1]⟩
abbrev S1700000x64 : Shape := ⟨2, ![1700000, 64]⟩

abbrev nBuf : Space → Nat
  | .hbm => 113
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1, .i32⟩
  | .hbm, ⟨59, _⟩ => ⟨S_, .i32⟩
  | .hbm, ⟨60, _⟩ => ⟨S1700000x1, .i32⟩
  | .hbm, ⟨61, _⟩ => ⟨S1700000x1, .i1⟩
  | .hbm, ⟨62, _⟩ => ⟨S1x1, .i32⟩
  | .hbm, ⟨63, _⟩ => ⟨S1700000x1, .i32⟩
  | .hbm, ⟨64, _⟩ => ⟨S1700000x1, .i1⟩
  | .hbm, ⟨65, _⟩ => ⟨S1700000x1, .i1⟩
  | .hbm, ⟨66, _⟩ => ⟨S_, .i1⟩
  | .hbm, ⟨67, _⟩ => ⟨S1700000, .i1⟩
  | .hbm, ⟨68, _⟩ => ⟨S1700000x64, .f32⟩
  | .hbm, ⟨69, _⟩ => ⟨S1700000x64, .i1⟩
  | .hbm, ⟨70, _⟩ => ⟨S_, .f32⟩
  | .hbm, ⟨71, _⟩ => ⟨S1700000x64, .f32⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1, .i32⟩
  | .hbm, ⟨91, _⟩ => ⟨S_, .i32⟩
  | .hbm, ⟨92, _⟩ => ⟨S1700000x1, .i32⟩
  | .hbm, ⟨93, _⟩ => ⟨S1700000x1, .i1⟩
  | .hbm, ⟨94, _⟩ => ⟨S1x1, .i32⟩
  | .hbm, ⟨95, _⟩ => ⟨S1700000x1, .i32⟩
  | .hbm, ⟨96, _⟩ => ⟨S1700000x1, .i1⟩
  | .hbm, ⟨97, _⟩ => ⟨S1700000x1, .i1⟩
  | .hbm, ⟨98, _⟩ => ⟨S_, .i1⟩
  | .hbm, ⟨99, _⟩ => ⟨S1700000, .i1⟩
  | .hbm, ⟨100, _⟩ => ⟨S1700000x64, .f32⟩
  | .hbm, ⟨101, _⟩ => ⟨S1700000x64, .i1⟩
  | .hbm, ⟨102, _⟩ => ⟨S_, .f32⟩
  | .hbm, ⟨103, _⟩ => ⟨S1700000x64, .f32⟩
  | .hbm, ⟨104, _⟩ => ⟨S1700000x64, .f32⟩
  | .hbm, ⟨105, _⟩ => ⟨S1700000x1, .f32⟩
  | .hbm, ⟨106, _⟩ => ⟨S1700000x64, .f32⟩
  | .hbm, ⟨107, _⟩ => ⟨S1700000x64, .f32⟩
  | .hbm, ⟨108, _⟩ => ⟨S_, .f32⟩
  | .hbm, ⟨109, _⟩ => ⟨S100000x64, .f32⟩
  | .hbm, ⟨110, _⟩ => ⟨S1700000x1, .i32⟩
  | .hbm, ⟨111, _⟩ => ⟨S100000x64, .f32⟩
  | .hbm, ⟨112, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64x64, .f32⟩
  | .local _ .vmem, ⟨4, _⟩ => ⟨S64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_6 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_7 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_1) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30_1) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x64, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The dense pieces of a two-layer graph convolution with a residual projection, as functions of whole arrays over the
  extended reals. Node features are arrays of 100000 rows and 64 columns; weights are 64 by 64; biases have 64 entries.
    rowsTimes x W   : row i of x times the matrix W          (i, j) ↦ ∑ k, x (i, k) · W (k, j)
    plusRow a b     : the bias b added to every row of a      (i, j) ↦ a (i, j) + b j
    clampBelow a    : the rectifier                           (i, j) ↦ max (a (i, j)) 0
    plus a b        : the entrywise sum
  Both programs compute their layers from these four; the irregular part (degrees, edge weights, gather and
  scatter-add along the edge list) is shared host arithmetic and is never opened.
-/
import Idealize.ShloMosaic.PureOps.Ideal
import Idealize.ShloMosaic.Lib.ValueIdx

noncomputable section

open scoped BigOperators

namespace Cert.Spec

open Idealize.ShloMosaic Idealize.ShloMosaic.ValueIdx

/-- Node features: 100000 rows of 64 numbers. -/
abbrev SN : Shape := ⟨2, ![100000, 64]⟩
/-- A weight matrix. -/
abbrev SW : Shape := ⟨2, ![64, 64]⟩
/-- A bias row. -/
abbrev SB : Shape := ⟨1, ![64]⟩

/-- Every row of `x` times the matrix `W`. -/
def rowsTimes (x : SN.Idx → EReal) (W : SW.Idx → EReal) : SN.Idx → EReal :=
  fun i => ∑ k : Fin 64, x (ix2 (⟨(i 0).val, idx2_lt0 i⟩ : Fin 100000) k) * W (ix2 k (⟨(i 1).val, idx2_lt1 i⟩ : Fin 64))

/-- The bias `b` added to every row of `a`. -/
def plusRow (a : SN.Idx → EReal) (b : SB.Idx → EReal) : SN.Idx → EReal :=
  fun i => a i + b (ix1 (⟨(i 1).val, idx2_lt1 i⟩ : Fin 64))

/-- The rectifier, entry by entry. -/
def clampBelow (a : SN.Idx → EReal) : SN.Idx → EReal := fun i => max (a i) 0

/-- The entrywise sum. -/
def plus (a b : SN.Idx → EReal) : SN.Idx → EReal := fun i => a i + b i

theorem rowsTimes_ix2 (x : SN.Idx → EReal) (W : SW.Idx → EReal) (p : Fin 100000) (q : Fin 64) :
    rowsTimes x W (ix2 p q) = ∑ k : Fin 64, x (ix2 p k) * W (ix2 k q) := rfl

theorem plusRow_ix2 (a : SN.Idx → EReal) (b : SB.Idx → EReal) (p : Fin 100000) (q : Fin 64) :
    plusRow a b (ix2 p q) = a (ix2 p q) + b (ix1 q) := rfl

end Cert.Spec

end
-- ==== Proof.RefOps.lean ====
/-
  The reference program's dense operations, read as whole-array functions over the extended reals.
  Each of the four is one of the functions of Spec: the contraction of a 100000 x 64 array with a 64 x 64 matrix is the
  row-by-matrix product, the sum with a doubly broadcast 64-entry row is the bias added to every row, the maximum
  against a broadcast zero is the rectifier, and the entrywise sum is itself.
-/
import proofs.«410912_j29927332118584_1_alg».proof.ReferenceIdeal
import proofs.«410912_j29927332118584_1_alg».proof.Proof.Spec
import Idealize.ShloMosaic.Lib.Pipeline.Value
import Idealize.ShloMosaic.Lib.ValueIdx
import Idealize.ShloMosaic.PureOps.Ideal.Laws

noncomputable section

namespace Cert.ReferenceIdeal.RefOps
open Idealize.ShloMosaic Idealize.ShloMosaic.TcCoe Idealize.SL.Sem Cert.ReferenceIdeal
variable [Cert.ReferenceIdeal.Facts]
open Facts₀ Facts

/-! ## The rectifier -/

/-- The maximum against the zero scalar broadcast to every entry is the entrywise maximum with 0: a broadcast of a
    rank-0 array reads its one element everywhere, and the all-zero word encodes the real number 0. -/
theorem relu_eq (a : FVec Ideal S100000x64 .f32) :
    (maximumf a (broadcastInDim S100000x64 ![] bcast_S_S100000x64 (constant S_ .f32 0x00000000#32)) : Cert.Spec.SN.Idx → EReal)
      = Cert.Spec.clampBelow a := by
  funext i
  show max (a i) (broadcastInDim S100000x64 ![] bcast_S_S100000x64 (constant (F := Ideal) S_ .f32 0x00000000#32) i) = max (a i) 0
  rw [broadcastInDim_apply _ bcast_S_S100000x64 (constant (F := Ideal) S_ .f32 0x00000000#32) i (fun a => a.elim0) (fun a => a.elim0),
    ValueIdx.constant_apply, Ideal.ofBits_zero_f32]

/-! ## The bias row -/

/-- The 64-entry row, first given a leading unit axis and then repeated along the 100000 rows, reads at (p, q) its
    entry q; so the sum with it adds entry q of the row to the entry (p, q) of the array. -/
theorem addRow_eq (a : FVec Ideal S100000x64 .f32) (b : FVec Ideal S64 .f32) :
    (addf a (broadcastInDim S100000x64 ![0, 1] bcast_S1x64_S100000x64_0_1 (broadcastInDim S1x64 ![1] bcast_S64_S1x64_1 b)) : Cert.Spec.SN.Idx → EReal)
      = Cert.Spec.plusRow a b := by
  funext i
  obtain ⟨p, q, rfl⟩ : ∃ (p : Fin 100000) (q : Fin 64), i = ValueIdx.ix2 p q := ⟨i 0, i 1, ValueIdx.eq_ix2 i⟩
  rw [Cert.Spec.plusRow_ix2, ValueIdx.addf_apply]
  congr 1
  -- the outer broadcast keeps the column and sends every row to the unit axis' only position
  rw [broadcastInDim_apply _ bcast_S1x64_S100000x64_0_1 (broadcastInDim S1x64 ![1] bcast_S64_S1x64_1 b) (ValueIdx.ix2 p q)
    (ValueIdx.ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]
  -- the inner broadcast reads the row at the column
  exact broadcastInDim_apply _ bcast_S64_S1x64_1 b (ValueIdx.ix2 (0 : Fin 1) q) (ValueIdx.ix1 q) (fun a => match a with
    | ⟨0, _⟩ => by show q.val = if (64 : Nat) = 1 then 0 else q.val; rw [if_neg (by decide)])

/-! ## The product of the rows with a matrix -/

/-- The left operand's index at an output index and a contraction index: its row is the output's row … -/
theorem lhs_dot_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil), dif_pos (show (0 : Fin S100000x64.rank) ∈ dot_S100000x64_S64x64_S100000x64_1_0_0_1_n_n.lhsNonContracting from List.mem_singleton.mpr rfl)]
  rfl
/-- … and its column the contraction index. -/
theorem lhs_dot_1 (i : S100000x64.Idx) (q : dot_S100000x64_S64x64_S100000x64_1_0_0_1_n_n.contr.Idx) :
    (dot_S100000x64_S64x64_S100000x64_1_0_0_1_n_n.lhsIdx i q 1).val = (q ⟨0, Nat.one_pos⟩).val :=
  dot_S100000x64_S64x64_S100000x64_1_0_0_1_n_n.lhsIdx_val_of_single rfl i q
/-- The right operand's index: its row is the contraction index … -/
theorem rhs_dot_0 (i : S100000x64.Idx) (q : dot_S100000x64_S64x64_S100000x64_1_0_0_1_n_n.contr.Idx) :
    (dot_S100000x64_S64x64_S100000x64_1_0_0_1_n_n.rhsIdx i q 0).val = (q ⟨0, Nat.one_pos⟩).val :=
  dot_S100000x64_S64x64_S100000x64_1_0_0_1_n_n.rhsIdx_val_of_single rfl i q
/-- … and its column the output's column. -/
theorem rhs_dot_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil), dif_pos (show (1 : Fin S64x64.rank) ∈ dot_S100000x64_S64x64_S100000x64_1_0_0_1_n_n.rhsNonContracting from List.mem_singleton.mpr rfl)]
  rfl

/-- The contraction of axis 1 of the array with axis 0 of the matrix, at (p, q), is the sum over the contraction index
    of the products; re-indexing that one-axis index set by the 64 numbers k, the factors are the array at (p, k) and
    the matrix at (k, q). -/
theorem dot_eq (x : FVec Ideal S100000x64 .f32) (W : FVec Ideal S64x64 .f32) :
    (Host.dotGeneral dot_S100000x64_S64x64_S100000x64_1_0_0_1_n_n none x W : Cert.Spec.SN.Idx → EReal) = Cert.Spec.rowsTimes x W := by
  funext i
  obtain ⟨p, q, rfl⟩ : ∃ (p : Fin 100000) (q : Fin 64), i = ValueIdx.ix2 p q := ⟨i 0, i 1, ValueIdx.eq_ix2 i⟩
  rw [Cert.Spec.rowsTimes_ix2]
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ValueIdx.ix2 p q) ((ValueIdx.contrEquiv1 dot_S100000x64_S64x64_S100000x64_1_0_0_1_n_n 64 rfl rfl).symm k) = ValueIdx.ix2 p k := funext fun a => Fin.ext (by
    match a with
    | ⟨0, _⟩ => exact lhs_dot_0 _ _
    | ⟨1, _⟩ => exact (lhs_dot_1 _ _).trans hk)
  have er : dot_S100000x64_S64x64_S100000x64_1_0_0_1_n_n.rhsIdx (ValueIdx.ix2 p q) ((ValueIdx.contrEquiv1 dot_S100000x64_S64x64_S100000x64_1_0_0_1_n_n 64 rfl rfl).symm k) = ValueIdx.ix2 k q := funext fun a => Fin.ext (by
    match a with
    | ⟨0, _⟩ => exact (rhs_dot_0 _ _).trans hk
    | ⟨1, _⟩ => exact rhs_dot_1 _ _)
  rw [el, er]

/-! ## The entrywise sum -/

theorem add_eq (a b : FVec Ideal S100000x64 .f32) : (addf a b : Cert.Spec.SN.Idx → EReal) = Cert.Spec.plus a b := rfl

end Cert.ReferenceIdeal.RefOps
end
-- ==== Proof.TakeInBounds.lean ====
import proofs.«410912_j29927332118584_1_alg».proof.Defs
import proofs.«410912_j29927332118584_1_alg».proof.Proof.Spec
import Idealize.ShloMosaic.Lib.ValueIdx
import Idealize.ShloMosaic.PureOps.Reduce

noncomputable section

namespace Cert.KernelIdeal.Take
open Idealize.ShloMosaic Idealize.ShloMosaic.TcCoe Idealize.SL.Sem Cert.KernelIdeal
variable [Cert.KernelIdeal.Facts]
open Facts₀ Facts

abbrev wrapped (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

abbrev inBounds (i : IVec S1700000x1 32) : IVec S1700000 1 :=
  Host.reduce IntOp.andi
    (andi (cmpi .sge i (broadcastInDim S1700000x1 ![] bcast_S_S1700000x1 (constantI S_ 32 0#32)))
      (cmpi .sle i (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-! ### Words

  Three facts about one signed 32-bit word `v` with `0 ≤ v < 100000`: it is not below zero, it is at least zero,
  and it is at most 99999. Each compare is the one-bit word of a decided order relation on the signed readings. -/

/-- A word whose signed reading is not negative fails the test "below zero". -/
theorem slt_zero_of_nonneg (v : BitVec 32) (h : 0 ≤ v.toInt) : IntOp.cmpi .slt v 0#32 = 0#1 := by
  have h0 : (0#32 : BitVec 32).toInt = 0 := by decide
  simp only [IntOp.cmpi, BitVec.slt, h0]
  rw [decide_eq_false (by omega)]
  rfl

/-- A word whose signed reading is not negative passes the test "at least zero". -/
theorem sge_zero_of_nonneg (v : BitVec 32) (h : 0 ≤ v.toInt) : IntOp.cmpi .sge v 0#32 = 1#1 := by
  have h0 : (0#32 : BitVec 32).toInt = 0 := by decide
  simp only [IntOp.cmpi, BitVec.sle, h0]
  rw [decide_eq_true h]
  rfl

/-- A word whose signed reading is below 100000 passes the test "at most 99999". -/
theorem sle_top_of_lt (v : BitVec 32) (h : v.toInt < 100000) : IntOp.cmpi .sle v 99999#32 = 1#1 := by
  have h0 : (99999#32 : BitVec 32).toInt = 99999 := by decide
  simp only [IntOp.cmpi, BitVec.sle, h0]
  rw [decide_eq_true (by omega)]
  rfl

/-- A conjunction of ones, folded from one along any list, is one. -/
theorem foldl_andi_ones {ι : Type} : ∀ l : List ι, l.foldl (fun r _ => IntOp.andi r 1#1) 1#1 = 1#1
  | [] => rfl
  | _ :: l => by
    rw [List.foldl_cons, show IntOp.andi 1#1 1#1 = 1#1 from rfl]
    exact foldl_andi_ones l

/-! ### The wrap is the identity on indices that are not negative -/

/-- Where no index is negative the wrap `idx < 0 ? idx + 100000 : idx` leaves every index as it is. -/
theorem wrap_eq_self (s : IVec S1700000 32) (hs : ∀ e, 0 ≤ (s e).toInt ∧ (s e).toInt < 100000) :
    select (cmpi .slt s (broadcastInDim S1700000 ![] bcast_S_S1700000 (constantI S_ 32 0#32)))
      (addi s (broadcastInDim S1700000 ![] bcast_S_S1700000 (constantI S_ 32 100000#32))) s = s := by
  funext e
  show Scalar.select (IntOp.cmpi .slt (s e) 0#32) _ (s e) = s e
  rw [slt_zero_of_nonneg _ (hs e).1, ValueIdx.select_zero]

/-- So the wrapped index column is the index vector itself, laid out as a column. -/
theorem wrapped_eq (s : IVec S1700000 32) (hs : ∀ e, 0 ≤ (s e).toInt ∧ (s e).toInt < 100000) :
    wrapped s = broadcastInDim S1700000x1 ![0] bcast_S1700000_S1700000x1_0 s := by
  unfold wrapped
  rw [wrap_eq_self s hs]

/-! ### The bounds test holds everywhere -/

/-- Every entry of the wrapped column is an entry of `s`, so it lies in `[0, 100000)` and passes both compares;
    the test at row `e` is the conjunction of one, taken from one, over the entries of that row. -/
theorem inBounds_eq_ones (s : IVec S1700000 32) (hs : ∀ e, 0 ≤ (s e).toInt ∧ (s e).toInt < 100000) :
    inBounds (wrapped s) = fun _ => 1#1 := by
  rw [wrapped_eq s hs]
  have hmask : andi (cmpi .sge (broadcastInDim S1700000x1 ![0] bcast_S1700000_S1700000x1_0 s)
        (broadcastInDim S1700000x1 ![] bcast_S_S1700000x1 (constantI S_ 32 0#32)))
      (cmpi .sle (broadcastInDim S1700000x1 ![0] bcast_S1700000_S1700000x1_0 s)
        (broadcastInDim S1700000x1 ![0, 1] bcast_S1x1_S1700000x1_0_1
          (broadcastInDim S1x1 ![1] bcast_S1_S1x1_1 (constantI S1 32 99999#32)))) = fun _ => 1#1 := by
    funext i
    obtain ⟨e, he⟩ : ∃ e, broadcastInDim S1700000x1 ![0] bcast_S1700000_S1700000x1_0 s i = s e := ⟨_, rfl⟩
    show IntOp.andi (IntOp.cmpi .sge (broadcastInDim S1700000x1 ![0] bcast_S1700000_S1700000x1_0 s i) 0#32)
      (IntOp.cmpi .sle (broadcastInDim S1700000x1 ![0] bcast_S1700000_S1700000x1_0 s i) 99999#32) = 1#1
    rw [he, sge_zero_of_nonneg _ (hs e).1, sle_top_of_lt _ (hs e).2]
    rfl
  funext j
  show Host.reduce IntOp.andi _ (constantI S_ 1 1#1) reducesTo_S1700000x1_S1700000_d1 h_S_ j = 1#1
  rw [hmask, Host.reduce_eq_foldl]
  exact foldl_andi_ones _

/-! ### The filled gather is the plain gather -/

theorem take_eq_gather {F : FTy → Type} [FloatOps F] (x : FVec F S100000x64 .f32) (s : IVec S1700000 32)
    (hs : ∀ e, 0 ≤ (s e).toInt ∧ (s e).toInt < 100000) :
    select (broadcastInDim S1700000x64 ![0] bcast_S1700000_S1700000x64_0 (inBounds (wrapped s)))
        (Host.gather gather_S100000x64_S1700000x1_S1700000x64_1_0_n_n_0_1_164 x (wrapped s))
        (broadcastInDim S1700000x64 ![] bcast_S_S1700000x64 (constant S_ .f32 0x7FC00000#32))
      = Host.gather gather_S100000x64_S1700000x1_S1700000x64_1_0_n_n_0_1_164 x (wrapped s) := by
  -- the mask, spread along the rows, is one at every element, and a select on one keeps its first operand
  rw [inBounds_eq_ones s hs]
  funext i
  rw [ValueIdx.select_apply]
  exact ValueIdx.select_one _ _

end Cert.KernelIdeal.Take
end
-- ==== Proof.SourceRange.lean ====
/-
  The source column of the edge list with the self loops appended, and the range of its entries.

  The column is the first row of the [2, 1600000] edge table, flattened, followed by the numbers
  0, 1, …, 99999. The precondition says of the first row that every entry, read as a signed 32-bit
  word, is at least 0 and below 100000; the appended numbers are below 100000 by construction. So
  every one of the 1700000 entries lies in [0, 100000).
-/
import proofs.«410912_j29927332118584_1_alg».proof.Defs
import proofs.«410912_j29927332118584_1_alg».proof.Proof.Spec
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.SourceRange
open Idealize.ShloMosaic Idealize.ShloMosaic.TcCoe Idealize.SL.Sem Cert.KernelIdeal
variable [Cert.KernelIdeal.Facts] [Cert.Pre_finite_inputs.Facts]
open Facts₀ Facts

abbrev sources (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- A 32-bit word for which the signed comparisons "w ≥ 0" and "w < 100000" both come out true has its
    signed value in [0, 100000): the two comparisons are the order of the signed values, and the
    constants 0 and 100000 have the signed values 0 and 100000. -/
theorem word_range (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have k : (100000#32 : BitVec 32).toInt = 100000 := by decide
  rw [z] at h0; rw [k] at h1
  exact ⟨h0, h1⟩

/-- The appended self loops: entry i of 0, 1, …, 99999 is the word of the number i, and i < 100000 < 2³¹,
    so its signed value is i itself. -/
theorem iota_in_range (i : S100000.Idx) :
    0 ≤ (iotaInDim S100000 32 0 i).toInt ∧ (iotaInDim S100000 32 0 i).toInt < 100000 := by
  have hlt : (i 0).val < 100000 := (i 0).isLt
  have e : (iotaInDim S100000 32 0 i).toInt = ((i 0).val : Int) :=
    StableHlo.Predicate.toInt_ofNat_small _ (by omega)
  rw [e]; omega

/-- The first row of the edge table, flattened. The precondition is a conjunction of single bits whose last
    conjunct is the conjunction, over all 1600000 positions, of "entry ≥ 0 and entry < 100000" (signed) for this
    very array; the whole being 1, the last conjunct is 1, hence the bit at every position is 1, hence both
    comparisons hold at every position. -/
theorem slice_in_range (m : (ℓ : Loc nD τ sig) → Buf (Elt Ideal) ℓ) (hpre : Cert.Pre_KernelIdeal m) (c : Dev nD) (i : S1600000.Idx) :
    0 ≤ ((shapeCast S1600000 (extractStridedSlice S1x1600000 ![0, 0] (m ((c.tc : Thread nD τ).loc main_arg1)) slices_S2x1600000_S1x1600000_0_0) shapeCasts_S1x1600000_S1600000 : IVec S1600000 32) i).toInt
    ∧ ((shapeCast S1600000 (extractStridedSlice S1x1600000 ![0, 0] (m ((c.tc : Thread nD τ).loc main_arg1)) slices_S2x1600000_S1x1600000_0_0) shapeCasts_S1x1600000_S1600000 : IVec S1600000 32) i).toInt < 100000 := by
  have e := congrFun (hpre c) ValueIdx.ix0
  dsimp only [Cert.Pre_finite_inputs.fn, Cert.Pre_finite_inputs.fn_part1, Cert.Pre_finite_inputs.fn_part2] at e
  -- the flattened row is one array s, the same in the precondition and in the claim
  generalize (shapeCast S1600000 (extractStridedSlice S1x1600000 ![0, 0] (m ((c.tc : Thread nD τ).loc main_arg1)) slices_S2x1600000_S1x1600000_0_0) shapeCasts_S1x1600000_S1600000 : IVec S1600000 32) = s at e ⊢
  -- the last conjunct: "all positions of s are in range" is 1
  have hall := (IntOp.andi_eq_one.1 e).2
  -- so the bit at position i is 1
  have hi := Host.reduce_andi_all _ _ _ _ _ hall i
  -- and that bit is the conjunction of the two comparisons of s i
  obtain ⟨h0, h1⟩ := IntOp.andi_eq_one.1 hi
  exact word_range (s i) h0 h1

/-- Every entry of the source column lies in [0, 100000): position e below 1600000 reads the flattened first
    row at e, and position e from 1600000 on reads the appended numbers at e − 1600000. -/
theorem sources_in_range (m : (ℓ : Loc nD τ sig) → Buf (Elt Ideal) ℓ) (hpre : Cert.Pre_KernelIdeal m) (c : Dev nD) (e : S1700000.Idx) :
    0 ≤ (sources (m ((c.tc : Thread nD τ).loc main_arg1)) e).toInt ∧ (sources (m ((c.tc : Thread nD τ).loc main_arg1)) e).toInt < 100000 := by
  have hE : (e 0).val < 1700000 := (e 0).isLt
  by_cases hlt : (e 0).val < 1600000
  · -- in the first piece
    have E : sources (m ((c.tc : Thread nD τ).loc main_arg1)) e
        = (shapeCast S1600000 (extractStridedSlice S1x1600000 ![0, 0] (m ((c.tc : Thread nD τ).loc main_arg1)) slices_S2x1600000_S1x1600000_0_0) shapeCasts_S1x1600000_S1600000 : IVec S1600000 32)
            (ValueIdx.ix1 ⟨(e 0).val, hlt⟩) :=
      concatenate_pair_apply_left 0 _ _ concatenates_S1600000_S100000_S1700000_d0 e rfl _
        (fun b => by match b with | ⟨0, _⟩ => rfl)
    rw [E]
    exact slice_in_range m hpre c _
  · -- in the second piece, 1600000 positions further on
    have E : sources (m ((c.tc : Thread nD τ).loc main_arg1)) e
        = iotaInDim S100000 32 0 (ValueIdx.ix1 ⟨(e 0).val - 1600000, by omega⟩) :=
      concatenate_pair_apply_right 0 _ _ concatenates_S1600000_S100000_S1700000_d0 e rfl rfl _
        (fun b hb => by match b with | ⟨0, _⟩ => exact absurd rfl hb)
        (by show (e 0).val - 1600000 + 1600000 = (e 0).val; omega)
    rw [E]
    exact iota_in_range _

end Cert.KernelIdeal.SourceRange
end
-- ==== Proof.HostTerms.lean ====
/-
  The words of the host arithmetic between the dense layers: the source and target columns of the edge table (each with
  the self loops appended), the inverse square roots of the degrees, the edge weights, the gather at the wrapped source
  indices (a row of not-a-number wherever the bounds test of the wrapped index fails) and the scaled scatter-add into
  the rows the targets name. Each is the term the program's own operations compose.
-/
import proofs.«410912_j29927332118584_1_alg».proof.Proof.Gen.KernelIdeal.Launch
import proofs.«410912_j29927332118584_1_alg».proof.Proof.TakeInBounds
import proofs.«410912_j29927332118584_1_alg».proof.Proof.SourceRange
import Idealize.ShloMosaic.Lib.StableHlo.Run

noncomputable section

namespace Cert.KernelIdeal.HostStretch

open Idealize.ShloMosaic Idealize.ShloMosaic.TcCoe Idealize.SL.Sem Idealize.ShloMosaic.StableHlo
open Cert.KernelIdeal Cert.KernelIdeal.Gen Cert.KernelIdeal.Take Cert.KernelIdeal.SourceRange

variable {F : FTy → Type} [FloatOps F]

/-- The target column of the edge table with the self loops appended. -/
abbrev targets (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- Every node's degree: the number of edges (self loops included) whose target it is. -/
abbrev degree (ei : IVec S2x1600000 32) : FVec F S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 (targets ei)) (broadcastInDim S1700000 ![] bcast_S_S1700000 (constant S_ .f32 0x3F800000#32))

/-- The inverse square root of every node's degree, zero where the degree is not positive. -/
abbrev invSqrtDegree (ei : IVec S2x1600000 32) : FVec F S100000 .f32 :=
  select (cmpf (F := F) .ogt (degree (F := F) ei) (broadcastInDim S100000 ![] bcast_S_S100000 (constant S_ .f32 0x00000000#32)))
    (Host.rsqrt (degree (F := F) ei))
    (broadcastInDim S100000 ![] bcast_S_S100000 (id (constant S_ .f32 0x00000000#32)))

/-- The wrapped indices as the reference spells them (the same words as `wrapped`). -/
abbrev wrapNeg (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The weight of every edge: the product of the inverse square roots of the degrees at its source and at its target. -/
abbrev edgeWeight (ei : IVec S2x1600000 32) : FVec F S1700000 .f32 :=
  mulf
    (Host.gather gather_S100000_S1700000x1_S1700000_n_0_n_n_0_1_1 (invSqrtDegree (F := F) ei)
      (broadcastInDim S1700000x1 ![0] bcast_S1700000_S1700000x1_0 (wrapNeg (sources ei))))
    (Host.gather gather_S100000_S1700000x1_S1700000_n_0_n_n_0_1_1 (invSqrtDegree (F := F) ei)
      (broadcastInDim S1700000x1 ![0] bcast_S1700000_S1700000x1_0 (wrapNeg (targets ei))))

/-- Rows of `h` gathered at the wrapped indices `s`, a row of not-a-number where the bounds test fails. -/
abbrev takeFilled (h : FVec F S100000x64 .f32) (s : IVec S1700000 32) : FVec F S1700000x64 .f32 :=
  select (broadcastInDim S1700000x64 ![0] bcast_S1700000_S1700000x64_0 (inBounds (wrapped s)))
    (Host.gather gather_S100000x64_S1700000x1_S1700000x64_1_0_n_n_0_1_164 h (wrapped s))
    (broadcastInDim S1700000x64 ![] bcast_S_S1700000x64 (constant S_ .f32 0x7FC00000#32))

/-- Edge messages `g` scaled by the edge weights `n` and summed into the rows the targets `d` name. -/
abbrev scatterScaled (g : FVec F S1700000x64 .f32) (d : IVec S1700000 32) (n : FVec F S1700000 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf g (broadcastInDim S1700000x64 ![0, 1] bcast_S1700000x1_S1700000x64_0_1 (broadcastInDim S1700000x1 ![0] bcast_S1700000_S1700000x1_0 n)))

/-- A buffer that no operation of a stretch writes keeps its contents. -/
macro "not_written" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide))))

end Cert.KernelIdeal.HostStretch

end
-- ==== Proof.Opening.lean ====
/-
  The three stretches of host arithmetic that open the program, read for ANY contents X of the buffers they start
  from. The first computes the source and target columns of the edge table (self loops appended), the degrees, the test
  "degree positive" and the inverse square roots; the second selects between them; the third gathers the selected
  vector at the wrapped sources and at the wrapped targets and multiplies: the edge weights. None of them writes an
  argument array.
-/
import proofs.«410912_j29927332118584_1_alg».proof.Proof.HostTerms

noncomputable section

namespace Cert.KernelIdeal.HostStretch

open Idealize.ShloMosaic Idealize.ShloMosaic.TcCoe Idealize.SL.Sem Idealize.ShloMosaic.StableHlo
open Cert.KernelIdeal Cert.KernelIdeal.Gen Cert.KernelIdeal.Take Cert.KernelIdeal.SourceRange

variable {F : FTy → Type} [FloatOps F]

variable (X : Valuation τ sig (Elt F))

/-! ## The first stretch -/

set_option maxHeartbeats 1000000 in
theorem stretchA_sources : StableHlo.after hostOps0 X (Proc.devRef .tc main_v3) = sources (X (Proc.devRef .tc main_arg1)) := by
  dsimp only [hostOps0]; after_results; rfl
set_option maxHeartbeats 1000000 in
theorem stretchA_targets : StableHlo.after hostOps0 X (Proc.devRef .tc main_v6) = targets (X (Proc.devRef .tc main_arg1)) := by
  dsimp only [hostOps0]; after_results; rfl
set_option maxHeartbeats 1000000 in
theorem stretchA_positive : StableHlo.after hostOps0 X (Proc.devRef .tc main_v12)
    = cmpf (F := F) .ogt (degree (F := F) (X (Proc.devRef .tc main_arg1))) (broadcastInDim S100000 ![] bcast_S_S100000 (constant S_ .f32 0x00000000#32)) := by
  dsimp only [hostOps0]; after_results; rfl
set_option maxHeartbeats 1000000 in
theorem stretchA_rsqrt : StableHlo.after hostOps0 X (Proc.devRef .tc main_v13) = Host.rsqrt (degree (F := F) (X (Proc.devRef .tc main_arg1))) := by
  dsimp only [hostOps0]; after_results; rfl
set_option maxHeartbeats 1000000 in
theorem stretchA_zero : StableHlo.after hostOps0 X (Proc.devRef .tc main_cst_2) = (constant S_ .f32 0x00000000#32 : FVec F S_ .f32) := by
  dsimp only [hostOps0]; after_results; try rfl

/-! ## The second stretch -/

set_option maxHeartbeats 1000000 in
theorem stretchB_select : StableHlo.after hostOps0_1 X (Proc.devRef .tc main_v14)
    = (select (X (Proc.devRef .tc main_v12)) (X (Proc.devRef .tc main_v13))
        (broadcastInDim S100000 ![] bcast_S_S100000 (id (X (Proc.devRef .tc main_cst_2)))) : FVec F S100000 .f32) := by
  dsimp only [hostOps0_1]; after_results
  try simp only [TRef.ofBuf, TRef.toBuf, cast_eq]
  try rfl
theorem stretchB_keeps_v3 : StableHlo.after hostOps0_1 X (Proc.devRef .tc main_v3) = X (Proc.devRef .tc main_v3) := by not_written hostOps0_1
theorem stretchB_keeps_v6 : StableHlo.after hostOps0_1 X (Proc.devRef .tc main_v6) = X (Proc.devRef .tc main_v6) := by not_written hostOps0_1

/-! ## The third stretch -/

set_option maxHeartbeats 2000000 in
theorem stretchC_weights : StableHlo.after hostOps0_2 X (Proc.devRef .tc main_v29)
    = (mulf
        (Host.gather gather_S100000_S1700000x1_S1700000_n_0_n_n_0_1_1 (X (Proc.devRef .tc main_v14))
          (broadcastInDim S1700000x1 ![0] bcast_S1700000_S1700000x1_0 (wrapNeg (X (Proc.devRef .tc main_v3)))))
        (Host.gather gather_S100000_S1700000x1_S1700000_n_0_n_n_0_1_1 (X (Proc.devRef .tc main_v14))
          (broadcastInDim S1700000x1 ![0] bcast_S1700000_S1700000x1_0 (wrapNeg (X (Proc.devRef .tc main_v6))))) : FVec F S1700000 .f32) := by
  dsimp only [hostOps0_2]; after_results; try rfl
theorem stretchC_keeps_v3 : StableHlo.after hostOps0_2 X (Proc.devRef .tc main_v3) = X (Proc.devRef .tc main_v3) := by not_written hostOps0_2
theorem stretchC_keeps_v6 : StableHlo.after hostOps0_2 X (Proc.devRef .tc main_v6) = X (Proc.devRef .tc main_v6) := by not_written hostOps0_2

/-! ## The three together -/

theorem opening_sources :
    StableHlo.after hostOps0_2 (StableHlo.after hostOps0_1 (StableHlo.after hostOps0 X)) (Proc.devRef .tc main_v3)
      = sources (X (Proc.devRef .tc main_arg1)) := by
  rw [stretchC_keeps_v3, stretchB_keeps_v3, stretchA_sources]

theorem opening_targets :
    StableHlo.after hostOps0_2 (StableHlo.after hostOps0_1 (StableHlo.after hostOps0 X)) (Proc.devRef .tc main_v6)
      = targets (X (Proc.devRef .tc main_arg1)) := by
  rw [stretchC_keeps_v6, stretchB_keeps_v6, stretchA_targets]

theorem opening_weights :
    StableHlo.after hostOps0_2 (StableHlo.after hostOps0_1 (StableHlo.after hostOps0 X)) (Proc.devRef .tc main_v29)
      = edgeWeight (F := F) (X (Proc.devRef .tc main_arg1)) := by
  rw [stretchC_weights, stretchB_keeps_v3, stretchB_keeps_v6, stretchB_select, stretchA_sources, stretchA_targets,
    stretchA_positive, stretchA_rsqrt, stretchA_zero]

/-! ## What the opening stretches leave alone -/

theorem opening_keeps_arg0 :
    StableHlo.after hostOps0_2 (StableHlo.after hostOps0_1 (StableHlo.after hostOps0 X)) (Proc.devRef .tc main_arg0) = X (Proc.devRef .tc main_arg0) :=
  calc StableHlo.after hostOps0_2 (StableHlo.after hostOps0_1 (StableHlo.after hostOps0 X)) (Proc.devRef .tc main_arg0)
    _ = StableHlo.after hostOps0_1 (StableHlo.after hostOps0 X) (Proc.devRef .tc main_arg0) := by not_written hostOps0_2
    _ = StableHlo.after hostOps0 X (Proc.devRef .tc main_arg0) := by not_written hostOps0_1
    _ = X (Proc.devRef .tc main_arg0) := by not_written hostOps0
theorem opening_keeps_arg2 :
    StableHlo.after hostOps0_2 (StableHlo.after hostOps0_1 (StableHlo.after hostOps0 X)) (Proc.devRef .tc main_arg2) = X (Proc.devRef .tc main_arg2) :=
  calc StableHlo.after hostOps0_2 (StableHlo.after hostOps0_1 (StableHlo.after hostOps0 X)) (Proc.devRef .tc main_arg2)
    _ = StableHlo.after hostOps0_1 (StableHlo.after hostOps0 X) (Proc.devRef .tc main_arg2) := by not_written hostOps0_2
    _ = StableHlo.after hostOps0 X (Proc.devRef .tc main_arg2) := by not_written hostOps0_1
    _ = X (Proc.devRef .tc main_arg2) := by not_written hostOps0
theorem opening_keeps_arg3 :
    StableHlo.after hostOps0_2 (StableHlo.after hostOps0_1 (StableHlo.after hostOps0 X)) (Proc.devRef .tc main_arg3) = X (Proc.devRef .tc main_arg3) :=
  calc StableHlo.after hostOps0_2 (StableHlo.after hostOps0_1 (StableHlo.after hostOps0 X)) (Proc.devRef .tc main_arg3)
    _ = StableHlo.after hostOps0_1 (StableHlo.after hostOps0 X) (Proc.devRef .tc main_arg3) := by not_written hostOps0_2
    _ = StableHlo.after hostOps0 X (Proc.devRef .tc main_arg3) := by not_written hostOps0_1
    _ = X (Proc.devRef .tc main_arg3) := by not_written hostOps0
theorem opening_keeps_arg4 :
    StableHlo.after hostOps0_2 (StableHlo.after hostOps0_1 (StableHlo.after hostOps0 X)) (Proc.devRef .tc main_arg4) = X (Proc.devRef .tc main_arg4) :=
  calc StableHlo.after hostOps0_2 (StableHlo.after hostOps0_1 (StableHlo.after hostOps0 X)) (Proc.devRef .tc main_arg4)
    _ = StableHlo.after hostOps0_1 (StableHlo.after hostOps0 X) (Proc.devRef .tc main_arg4) := by not_written hostOps0_2
    _ = StableHlo.after hostOps0 X (Proc.devRef .tc main_arg4) := by not_written hostOps0_1
    _ = X (Proc.devRef .tc main_arg4) := by not_written hostOps0
theorem opening_keeps_arg5 :
    StableHlo.after hostOps0_2 (StableHlo.after hostOps0_1 (StableHlo.after hostOps0 X)) (Proc.devRef .tc main_arg5) = X (Proc.devRef .tc main_arg5) :=
  calc StableHlo.after hostOps0_2 (StableHlo.after hostOps0_1 (StableHlo.after hostOps0 X)) (Proc.devRef .tc main_arg5)
    _ = StableHlo.after hostOps0_1 (StableHlo.after hostOps0 X) (Proc.devRef .tc main_arg5) := by not_written hostOps0_2
    _ = StableHlo.after hostOps0 X (Proc.devRef .tc main_arg5) := by not_written hostOps0_1
    _ = X (Proc.devRef .tc main_arg5) := by not_written hostOps0
theorem opening_keeps_arg6 :
    StableHlo.after hostOps0_2 (StableHlo.after hostOps0_1 (StableHlo.after hostOps0 X)) (Proc.devRef .tc main_arg6) = X (Proc.devRef .tc main_arg6) :=
  calc StableHlo.after hostOps0_2 (StableHlo.after hostOps0_1 (StableHlo.after hostOps0 X)) (Proc.devRef .tc main_arg6)
    _ = StableHlo.after hostOps0_1 (StableHlo.after hostOps0 X) (Proc.devRef .tc main_arg6) := by not_written hostOps0_2
    _ = StableHlo.after hostOps0 X (Proc.devRef .tc main_arg6) := by not_written hostOps0_1
    _ = X (Proc.devRef .tc main_arg6) := by not_written hostOps0
theorem opening_keeps_arg7 :
    StableHlo.after hostOps0_2 (StableHlo.after hostOps0_1 (StableHlo.after hostOps0 X)) (Proc.devRef .tc main_arg7) = X (Proc.devRef .tc main_arg7) :=
  calc StableHlo.after hostOps0_2 (StableHlo.after hostOps0_1 (StableHlo.after hostOps0 X)) (Proc.devRef .tc main_arg7)
    _ = StableHlo.after hostOps0_1 (StableHlo.after hostOps0 X) (Proc.devRef .tc main_arg7) := by not_written hostOps0_2
    _ = StableHlo.after hostOps0 X (Proc.devRef .tc main_arg7) := by not_written hostOps0_1
    _ = X (Proc.devRef .tc main_arg7) := by not_written hostOps0

end Cert.KernelIdeal.HostStretch

end
-- ==== Proof.AggregationOne.lean ====
/-
  The first aggregation, read for ANY contents X of the buffers its two stretches start from. The first stretch, cut in
  three: it wraps the source indices (negative ones have 100000 added); it tests the wrapped indices against the bounds 0
  and 99999; it gathers the projected rows at the wrapped indices and keeps a gathered row where the test holds, a row
  of not-a-number where it fails. The second stretch scales the rows by the edge weights and sums them into the rows
  the targets name. What the stretches do not write they leave alone.
-/
import proofs.«410912_j29927332118584_1_alg».proof.Proof.HostTerms
import Idealize.ShloMosaic.Lib.Pipeline.Frame

noncomputable section

namespace Cert.KernelIdeal.HostStretch

open Idealize.ShloMosaic Idealize.ShloMosaic.TcCoe Idealize.SL.Sem Idealize.ShloMosaic.StableHlo
open Cert.KernelIdeal Cert.KernelIdeal.Gen Cert.KernelIdeal.Take Cert.KernelIdeal.SourceRange

variable {F : FTy → Type} [FloatOps F]

variable (X : Valuation τ sig (Elt F))

/-- The operations that wrap the indices. -/
abbrev firstWrap : List (HloOp τ sig (Elt F)) := (hostOps1 (F := F)).take 8
/-- The operations that test the wrapped indices' bounds. -/
abbrev firstTest : List (HloOp τ sig (Elt F)) := ((hostOps1 (F := F)).drop 8).take 10
/-- The operations that gather and fill. -/
abbrev firstFill : List (HloOp τ sig (Elt F)) := (hostOps1 (F := F)).drop 18

theorem first_cut : (hostOps1 (F := F)) = firstWrap (F := F) ++ (firstTest (F := F) ++ firstFill (F := F)) := rfl

set_option maxHeartbeats 1000000 in
theorem first_wrap : StableHlo.after (firstWrap (F := F)) X (Proc.devRef .tc main_call1_v5) = wrapped (X (Proc.devRef .tc main_v3)) := by
  dsimp only [firstWrap, hostOps1, List.take]
  after_results
  try simp only [TRef.ofBuf, TRef.toBuf, cast_eq]
  try rfl
theorem first_wrap_keeps_h : StableHlo.after (firstWrap (F := F)) X (Proc.devRef .tc main_v30_0) = X (Proc.devRef .tc main_v30_0) := by
  dsimp only [firstWrap, hostOps1, List.take]
  not_written hostOps1

set_option maxHeartbeats 1000000 in
theorem first_test : StableHlo.after (firstTest (F := F)) X (Proc.devRef .tc main_call1_v12) = inBounds (X (Proc.devRef .tc main_call1_v5)) := by
  dsimp only [firstTest, hostOps1, List.take, List.drop]
  after_results
  try simp only [TRef.ofBuf, TRef.toBuf, cast_eq]
  try rfl
theorem first_test_keeps_h : StableHlo.after (firstTest (F := F)) X (Proc.devRef .tc main_v30_0) = X (Proc.devRef .tc main_v30_0) := by
  dsimp only [firstTest, hostOps1, List.take, List.drop]
  not_written hostOps1
theorem first_test_keeps_idx : StableHlo.after (firstTest (F := F)) X (Proc.devRef .tc main_call1_v5) = X (Proc.devRef .tc main_call1_v5) := by
  dsimp only [firstTest, hostOps1, List.take, List.drop]
  not_written hostOps1

set_option maxHeartbeats 1000000 in
theorem first_fill : StableHlo.after (firstFill (F := F)) X (Proc.devRef .tc main_v31)
    = (select (broadcastInDim S1700000x64 ![0] bcast_S1700000_S1700000x64_0 (X (Proc.devRef .tc main_call1_v12)))
        (Host.gather gather_S100000x64_S1700000x1_S1700000x64_1_0_n_n_0_1_164 (X (Proc.devRef .tc main_v30_0)) (X (Proc.devRef .tc main_call1_v5)))
        (broadcastInDim S1700000x64 ![] bcast_S_S1700000x64 (constant S_ .f32 0x7FC00000#32)) : FVec F S1700000x64 .f32) := by
  dsimp only [firstFill, hostOps1, List.drop]
  after_results
  try simp only [TRef.ofBuf, TRef.toBuf, cast_eq]
  try rfl

/-- What the gather leaves: the projected rows at the wrapped sources, filled where the bounds test fails. -/
theorem first_take :
    StableHlo.after hostOps1 X (Proc.devRef .tc main_v31)
      = takeFilled (F := F) (X (Proc.devRef .tc main_v30_0)) (X (Proc.devRef .tc main_v3)) := by
  rw [first_cut, StableHlo.after_append, StableHlo.after_append, first_fill, first_test, first_test_keeps_h, first_test_keeps_idx,
    first_wrap, first_wrap_keeps_h]

theorem first_first_keeps_v29 : StableHlo.after hostOps1 X (Proc.devRef .tc main_v29) = X (Proc.devRef .tc main_v29) := by not_written hostOps1
theorem first_first_keeps_v6 : StableHlo.after hostOps1 X (Proc.devRef .tc main_v6) = X (Proc.devRef .tc main_v6) := by not_written hostOps1

set_option maxHeartbeats 2000000 in
/-- What the scatter leaves, from the contents the second stretch starts at. -/
theorem first_scatter :
    StableHlo.after hostOps1_1 X (Proc.devRef .tc main_v37)
      = scatterScaled (F := F) (X (Proc.devRef .tc main_v31)) (X (Proc.devRef .tc main_v6)) (X (Proc.devRef .tc main_v29)) := by
  dsimp only [hostOps1_1]
  after_results
  try rfl

/-- The aggregation as one function of the contents it starts from. -/
theorem first_aggregate :
    StableHlo.after hostOps1_1 (StableHlo.after hostOps1 X) (Proc.devRef .tc main_v37)
      = scatterScaled (F := F) (takeFilled (F := F) (X (Proc.devRef .tc main_v30_0)) (X (Proc.devRef .tc main_v3)))
          (X (Proc.devRef .tc main_v6)) (X (Proc.devRef .tc main_v29)) := by
  rw [first_scatter, first_take, first_first_keeps_v6, first_first_keeps_v29]

/-! ## What the two stretches leave alone -/

theorem first_keeps_arg3 :
    StableHlo.after hostOps1_1 (StableHlo.after hostOps1 X) (Proc.devRef .tc main_arg3) = X (Proc.devRef .tc main_arg3) :=
  calc StableHlo.after hostOps1_1 (StableHlo.after hostOps1 X) (Proc.devRef .tc main_arg3)
    _ = StableHlo.after hostOps1 X (Proc.devRef .tc main_arg3) := by not_written hostOps1_1
    _ = X (Proc.devRef .tc main_arg3) := by not_written hostOps1
theorem first_keeps_arg4 :
    StableHlo.after hostOps1_1 (StableHlo.after hostOps1 X) (Proc.devRef .tc main_arg4) = X (Proc.devRef .tc main_arg4) :=
  calc StableHlo.after hostOps1_1 (StableHlo.after hostOps1 X) (Proc.devRef .tc main_arg4)
    _ = StableHlo.after hostOps1 X (Proc.devRef .tc main_arg4) := by not_written hostOps1_1
    _ = X (Proc.devRef .tc main_arg4) := by not_written hostOps1
theorem first_keeps_arg5 :
    StableHlo.after hostOps1_1 (StableHlo.after hostOps1 X) (Proc.devRef .tc main_arg5) = X (Proc.devRef .tc main_arg5) :=
  calc StableHlo.after hostOps1_1 (StableHlo.after hostOps1 X) (Proc.devRef .tc main_arg5)
    _ = StableHlo.after hostOps1 X (Proc.devRef .tc main_arg5) := by not_written hostOps1_1
    _ = X (Proc.devRef .tc main_arg5) := by not_written hostOps1
theorem first_keeps_v30_1 :
    StableHlo.after hostOps1_1 (StableHlo.after hostOps1 X) (Proc.devRef .tc main_v30_1) = X (Proc.devRef .tc main_v30_1) :=
  calc StableHlo.after hostOps1_1 (StableHlo.after hostOps1 X) (Proc.devRef .tc main_v30_1)
    _ = StableHlo.after hostOps1 X (Proc.devRef .tc main_v30_1) := by not_written hostOps1_1
    _ = X (Proc.devRef .tc main_v30_1) := by not_written hostOps1
theorem first_keeps_v3 :
    StableHlo.after hostOps1_1 (StableHlo.after hostOps1 X) (Proc.devRef .tc main_v3) = X (Proc.devRef .tc main_v3) :=
  calc StableHlo.after hostOps1_1 (StableHlo.after hostOps1 X) (Proc.devRef .tc main_v3)
    _ = StableHlo.after hostOps1 X (Proc.devRef .tc main_v3) := by not_written hostOps1_1
    _ = X (Proc.devRef .tc main_v3) := by not_written hostOps1
theorem first_keeps_v6 :
    StableHlo.after hostOps1_1 (StableHlo.after hostOps1 X) (Proc.devRef .tc main_v6) = X (Proc.devRef .tc main_v6) :=
  calc StableHlo.after hostOps1_1 (StableHlo.after hostOps1 X) (Proc.devRef .tc main_v6)
    _ = StableHlo.after hostOps1 X (Proc.devRef .tc main_v6) := by not_written hostOps1_1
    _ = X (Proc.devRef .tc main_v6) := by not_written hostOps1
theorem first_keeps_v29 :
    StableHlo.after hostOps1_1 (StableHlo.after hostOps1 X) (Proc.devRef .tc main_v29) = X (Proc.devRef .tc main_v29) :=
  calc StableHlo.after hostOps1_1 (StableHlo.after hostOps1 X) (Proc.devRef .tc main_v29)
    _ = StableHlo.after hostOps1 X (Proc.devRef .tc main_v29) := by not_written hostOps1_1
    _ = X (Proc.devRef .tc main_v29) := by not_written hostOps1

end Cert.KernelIdeal.HostStretch

end
-- ==== Proof.AggregationTwo.lean ====
/-
  The second aggregation, read for ANY contents X of the buffers its two stretches start from. The first stretch, cut in
  three: it wraps the source indices (negative ones have 100000 added); it tests the wrapped indices against the bounds 0
  and 99999; it gathers the projected rows at the wrapped indices and keeps a gathered row where the test holds, a row
  of not-a-number where it fails. The second stretch scales the rows by the edge weights and sums them into the rows
  the targets name. What the stretches do not write they leave alone.
-/
import proofs.«410912_j29927332118584_1_alg».proof.Proof.HostTerms
import Idealize.ShloMosaic.Lib.Pipeline.Frame

noncomputable section

namespace Cert.KernelIdeal.HostStretch

open Idealize.ShloMosaic Idealize.ShloMosaic.TcCoe Idealize.SL.Sem Idealize.ShloMosaic.StableHlo
open Cert.KernelIdeal Cert.KernelIdeal.Gen Cert.KernelIdeal.Take Cert.KernelIdeal.SourceRange

variable {F : FTy → Type} [FloatOps F]

variable (X : Valuation τ sig (Elt F))

/-- The operations that wrap the indices. -/
abbrev secondWrap : List (HloOp τ sig (Elt F)) := (hostOps3 (F := F)).take 8
/-- The operations that test the wrapped indices' bounds. -/
abbrev secondTest : List (HloOp τ sig (Elt F)) := ((hostOps3 (F := F)).drop 8).take 10
/-- The operations that gather and fill. -/
abbrev secondFill : List (HloOp τ sig (Elt F)) := (hostOps3 (F := F)).drop 18

theorem second_cut : (hostOps3 (F := F)) = secondWrap (F := F) ++ (secondTest (F := F) ++ secondFill (F := F)) := rfl

set_option maxHeartbeats 1000000 in
theorem second_wrap : StableHlo.after (secondWrap (F := F)) X (Proc.devRef .tc main_call2_v5) = wrapped (X (Proc.devRef .tc main_v3)) := by
  dsimp only [secondWrap, hostOps3, List.take]
  after_results
  try simp only [TRef.ofBuf, TRef.toBuf, cast_eq]
  try rfl
theorem second_wrap_keeps_h : StableHlo.after (secondWrap (F := F)) X (Proc.devRef .tc main_v39) = X (Proc.devRef .tc main_v39) := by
  dsimp only [secondWrap, hostOps3, List.take]
  not_written hostOps3

set_option maxHeartbeats 1000000 in
theorem second_test : StableHlo.after (secondTest (F := F)) X (Proc.devRef .tc main_call2_v12) = inBounds (X (Proc.devRef .tc main_call2_v5)) := by
  dsimp only [secondTest, hostOps3, List.take, List.drop]
  after_results
  try simp only [TRef.ofBuf, TRef.toBuf, cast_eq]
  try rfl
theorem second_test_keeps_h : StableHlo.after (secondTest (F := F)) X (Proc.devRef .tc main_v39) = X (Proc.devRef .tc main_v39) := by
  dsimp only [secondTest, hostOps3, List.take, List.drop]
  not_written hostOps3
theorem second_test_keeps_idx : StableHlo.after (secondTest (F := F)) X (Proc.devRef .tc main_call2_v5) = X (Proc.devRef .tc main_call2_v5) := by
  dsimp only [secondTest, hostOps3, List.take, List.drop]
  not_written hostOps3

set_option maxHeartbeats 1000000 in
theorem second_fill : StableHlo.after (secondFill (F := F)) X (Proc.devRef .tc main_v40)
    = (select (broadcastInDim S1700000x64 ![0] bcast_S1700000_S1700000x64_0 (X (Proc.devRef .tc main_call2_v12)))
        (Host.gather gather_S100000x64_S1700000x1_S1700000x64_1_0_n_n_0_1_164 (X (Proc.devRef .tc main_v39)) (X (Proc.devRef .tc main_call2_v5)))
        (broadcastInDim S1700000x64 ![] bcast_S_S1700000x64 (constant S_ .f32 0x7FC00000#32)) : FVec F S1700000x64 .f32) := by
  dsimp only [secondFill, hostOps3, List.drop]
  after_results
  try simp only [TRef.ofBuf, TRef.toBuf, cast_eq]
  try rfl

/-- What the gather leaves: the projected rows at the wrapped sources, filled where the bounds test fails. -/
theorem second_take :
    StableHlo.after hostOps3 X (Proc.devRef .tc main_v40)
      = takeFilled (F := F) (X (Proc.devRef .tc main_v39)) (X (Proc.devRef .tc main_v3)) := by
  rw [second_cut, StableHlo.after_append, StableHlo.after_append, second_fill, second_test, second_test_keeps_h, second_test_keeps_idx,
    second_wrap, second_wrap_keeps_h]

theorem second_first_keeps_v29 : StableHlo.after hostOps3 X (Proc.devRef .tc main_v29) = X (Proc.devRef .tc main_v29) := by not_written hostOps3
theorem second_first_keeps_v6 : StableHlo.after hostOps3 X (Proc.devRef .tc main_v6) = X (Proc.devRef .tc main_v6) := by not_written hostOps3

set_option maxHeartbeats 2000000 in
/-- What the scatter leaves, from the contents the second stretch starts at. -/
theorem second_scatter :
    StableHlo.after hostOps3_1 X (Proc.devRef .tc main_v46)
      = scatterScaled (F := F) (X (Proc.devRef .tc main_v40)) (X (Proc.devRef .tc main_v6)) (X (Proc.devRef .tc main_v29)) := by
  dsimp only [hostOps3_1]
  after_results
  try rfl

/-- The aggregation as one function of the contents it starts from. -/
theorem second_aggregate :
    StableHlo.after hostOps3_1 (StableHlo.after hostOps3 X) (Proc.devRef .tc main_v46)
      = scatterScaled (F := F) (takeFilled (F := F) (X (Proc.devRef .tc main_v39)) (X (Proc.devRef .tc main_v3)))
          (X (Proc.devRef .tc main_v6)) (X (Proc.devRef .tc main_v29)) := by
  rw [second_scatter, second_take, second_first_keeps_v6, second_first_keeps_v29]

/-! ## What the two stretches leave alone -/

theorem second_keeps_arg5 :
    StableHlo.after hostOps3_1 (StableHlo.after hostOps3 X) (Proc.devRef .tc main_arg5) = X (Proc.devRef .tc main_arg5) :=
  calc StableHlo.after hostOps3_1 (StableHlo.after hostOps3 X) (Proc.devRef .tc main_arg5)
    _ = StableHlo.after hostOps3 X (Proc.devRef .tc main_arg5) := by not_written hostOps3_1
    _ = X (Proc.devRef .tc main_arg5) := by not_written hostOps3
theorem second_keeps_v30_1 :
    StableHlo.after hostOps3_1 (StableHlo.after hostOps3 X) (Proc.devRef .tc main_v30_1) = X (Proc.devRef .tc main_v30_1) :=
  calc StableHlo.after hostOps3_1 (StableHlo.after hostOps3 X) (Proc.devRef .tc main_v30_1)
    _ = StableHlo.after hostOps3 X (Proc.devRef .tc main_v30_1) := by not_written hostOps3_1
    _ = X (Proc.devRef .tc main_v30_1) := by not_written hostOps3

end Cert.KernelIdeal.HostStretch

end
-- ==== Proof.Projection.lean ====
/-
  The two plain projections of the node features, each as one function of whole arrays over the extended reals.

  A grid of ten points walks down the 100000 rows of a feature array in blocks of 10000 rows; at every point the whole
  64 by 64 weight matrix is in view. At point t the body multiplies the block (rows 10000·t … 10000·t + 9999) by the
  weight matrix, accumulating into zero, and writes the product to the same rows of the output. Row r of the output is
  therefore written exactly once, at point r / 10000, and holds ∑ k, x (r, k) · W (k, j) in column j: the output array
  is `rowsTimes x W`. The sum is never regrouped, so no finiteness is used.
-/
import proofs.«410912_j29927332118584_1_alg».proof.Proof.Gen.KernelIdeal.Frame
import proofs.«410912_j29927332118584_1_alg».proof.Proof.Spec
import Idealize.ShloMosaic.Lib.Pipeline.Value
import Idealize.ShloMosaic.Lib.ValueIdx
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx
open scoped BigOperators

variable (V : (c : Dev nD) → (b : Ref sig .tc) → Buf (Elt Ideal) ((c : Thread nD τ).loc b))

namespace Projection

/-! ## A block of rows times the weight matrix, entry by entry -/

/-- The origin of a rank-2 array, spelt as a constant function. -/
theorem origin2 : (![0, 0] : Fin 2 → Nat) = fun _ => 0 := funext fun a => by fin_cases a <;> rfl

/-- The left operand of the product is read at the output's row … -/
theorem blockDot_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the summation index as its column; -/
theorem blockDot_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the summation index as its row … -/
theorem blockDot_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem blockDot_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block times the matrix, accumulated into zero: entry (p, q) is ∑ k, x (p, k) · w (k, q). The zero accumulator adds
    nothing, and the one summed axis is re-indexed by its 64 values. -/
theorem blockProduct_apply (x : FVec Ideal S10000x64 .f32) (w : FVec Ideal S64x64 .f32) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  show FloatOps.matmul dot_S10000x64_S64x64_S10000x64_1_0_0_1_n_n none x w (constant (F := Ideal) S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact blockDot_lhs_0 _ _
    | ⟨1, _⟩ => exact (blockDot_lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (blockDot_rhs_0 _ _).trans hk
    | ⟨1, _⟩ => exact blockDot_rhs_1 _ _)
  rw [el, er]

/-- From a block to the array. Let `P` be the product of a block `x` with a matrix `w`, where `x` is rows
    10000·n … 10000·n + 9999 of an array `X` and `w` is all of `W`. Then `P` at (p, q) is `rowsTimes X W` at
    (10000·n + p, q): the two sums have the same terms. -/
theorem blockProduct_eq_rowsTimes (P x : Vec Ideal S10000x64 .f32) (w : Vec Ideal S64x64 .f32)
    (X : Cert.Spec.SN.Idx → EReal) (W : Cert.Spec.SW.Idx → EReal) (n : Nat)
    (hP : ∀ (p : Fin 10000) (q : Fin 64), P (ix2 p q) = ∑ k : Fin 64, x (ix2 p k) * w (ix2 k q))
    (hx : ∀ (p : Fin 10000) (k : Fin 64) (i : Cert.Spec.SN.Idx), (i 0).val = n * 10000 + p.val → (i 1).val = k.val → x (ix2 p k) = X i)
    (hw : ∀ (k q : Fin 64), w (ix2 k q) = W (ix2 k q))
    (y : S10000x64.Idx) (i : Cert.Spec.SN.Idx) (h0 : (i 0).val = n * 10000 + (y 0).val) (h1 : (i 1).val = (y 1).val) :
    P y = Cert.Spec.rowsTimes X W i := by
  obtain ⟨p, q, rfl⟩ : ∃ (p : Fin 10000) (q : Fin 64), y = ix2 p q := ⟨y 0, y 1, eq_ix2 y⟩
  obtain ⟨r, s, rfl⟩ : ∃ (r : Fin 100000) (s : Fin 64), i = ix2 r s := ⟨i 0, i 1, eq_ix2 i⟩
  have hs : s = q := Fin.ext h1
  subst hs
  rw [hP, Cert.Spec.rowsTimes_ix2]
  exact Finset.sum_congr rfl fun k _ => by rw [hx p k (ix2 r k) h0 rfl, hw]

/-! ## The first projection: the input features times the first layer's weights -/

/-- What the first body writes, at an entry of its block. -/
theorem firstPayload_apply (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  exact blockProduct_apply x w p q

/-- Where the blocks lie, decided once over the ten points: the feature block and the output block of point t both start
    at block row t, column block 0; the weight matrix is always its one whole block. -/
theorem blocksAt0 : ∀ t : Fin cfg0.N, win0_0.index t (0 : Fin 2) = t.val ∧ win0_0.index t (1 : Fin 2) = 0
    ∧ win0_1.index t (0 : Fin 2) = 0 ∧ win0_1.index t (1 : Fin 2) = 0
    ∧ win0_4.index t (0 : Fin 2) = t.val ∧ win0_4.index t (1 : Fin 2) = 0 :=
  (by decide +kernel : ∀ t : Fin grid0.N, _)

/-- Each of the ten block rows is some point's. -/
theorem pointOf0 : ∀ n : Fin 10, ∃ t : Fin cfg0.N, t.val = n.val :=
  (by decide +kernel : ∀ n : Fin 10, ∃ t : Fin grid0.N, t.val = n.val)

/-- The feature block at point t is rows 10000·t … of the feature array. -/
theorem featureBlock0_apply (c : Dev nD) (t : Fin cfg0.N) (p : Fin 10000) (k : Fin 64) (i : Cert.Spec.SN.Idx)
    (h0 : (i 0).val = t.val * 10000 + p.val) (h1 : (i 1).val = k.val) :
    (iblk0 V c 0 t : Vec Ideal S10000x64 .f32) (ix2 p k) = (V c main_arg0 : Cert.Spec.SN.Idx → EReal) i := by
  obtain ⟨e00, e01, -⟩ := blocksAt0 t
  unfold iblk0
  rw [View.read_apply]
  show V c main_arg0 _ = V c main_arg0 _
  congr 1
  funext a
  apply Fin.ext
  match a with
  | ⟨0, _⟩ => show win0_0.index t (0 : Fin 2) * 10000 + 1 * p.val = (i 0).val; rw [e00, h0]; omega
  | ⟨1, _⟩ => show win0_0.index t (1 : Fin 2) * 64 + 1 * k.val = (i 1).val; rw [e01, h1]; omega

/-- The weight block at every point is the whole weight matrix. -/
theorem weightBlock0_apply (c : Dev nD) (t : Fin cfg0.N) (k q : Fin 64) :
    (iblk0 V c 1 t : Vec Ideal S64x64 .f32) (ix2 k q) = (V c main_arg2 : Cert.Spec.SW.Idx → EReal) (ix2 k q) := by
  obtain ⟨-, -, e10, e11, -⟩ := blocksAt0 t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e10]; omega
  | ⟨1, _⟩ => show win0_1.index t (1 : Fin 2) * 64 + 1 * q.val = q.val; rw [e11]; omega

/-- What point t writes back is block t of `rowsTimes` of the two arrays. -/
theorem firstProjection_block (c : Dev nD) (t : Fin cfg0.N) :
    (dat0 (F := Ideal) V c).flushed 4 t
      = ((cfg0.win 4).blk t).view.read (Elt Ideal) (Cert.Spec.rowsTimes (V c main_arg0) (V c main_arg2)) := by
  show (cfg0.win 4).cut (grid0.coords t) ((dat0 V c).after 4 t) = _
  rw [after0_4]
  unfold out0_4
  rw [View.canon_unit_zero origin2]
  simp only [View.ld_unit_zero (S := S10000x64) origin2, View.ld_unit_zero (S := S64x64) origin2]
  obtain ⟨-, -, -, -, e40, e41⟩ := blocksAt0 t
  funext j
  rw [View.read_apply]
  refine blockProduct_eq_rowsTimes (k0_pay1 (F := Ideal) (iblk0 V c 0 t) (iblk0 V c 1 t)) (iblk0 V c 0 t) (iblk0 V c 1 t)
    (V c main_arg0) (V c main_arg2) t.val (firstPayload_apply (iblk0 V c 0 t) (iblk0 V c 1 t))
    (featureBlock0_apply V c t) (weightBlock0_apply V c t) ((win0 4).xinj (grid0.coords t) j) (((cfg0.win 4).blk t).view.emb j) ?_ ?_
  · show win0_4.index t (0 : Fin 2) * 10000 + 1 * (j 0).val = t.val * 10000 + (j 0).val
    rw [e40]; omega
  · show win0_4.index t (1 : Fin 2) * 64 + 1 * (j 1).val = (j 1).val
    rw [e41]; omega

/-- An entry of the output array lies in point t's block iff each coordinate lies in the block's range on its axis. -/
theorem firstProjection_mem (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v30_0).slice (win0_4.rect t)).set ↔ _
  rw [View.set_slice_whole, Rect.mem_set_unit]
  exact Iff.rfl

/-- Every entry is written: row r by the point r / 10000. -/
theorem firstProjection_cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := pointOf0 ⟨(i 0).val / 10000, by omega⟩
  have ht' : t.val = (i 0).val / 10000 := ht
  obtain ⟨-, -, -, -, e40, e41⟩ := blocksAt0 t
  refine ⟨t, flush0_4 t, ?_⟩
  rw [firstProjection_mem]
  intro a
  match a with
  | ⟨0, _⟩ => show win0_4.index t (0 : Fin 2) * 10000 ≤ (i 0).val ∧ (i 0).val < win0_4.index t (0 : Fin 2) * 10000 + 10000; rw [e40]; omega
  | ⟨1, _⟩ => show win0_4.index t (1 : Fin 2) * 64 ≤ (i 1).val ∧ (i 1).val < win0_4.index t (1 : Fin 2) * 64 + 64; rw [e41]; omega

/-! ## The second projection: the hidden features times the second layer's weights -/

/-- What the second body writes, at an entry of its block: the cast of the block to its own shape changes nothing, and the
    rest is the same product. -/
theorem secondPayload_apply (x : Vec Ideal S10000x64 .f32) (w : Vec Ideal S64x64 .f32) (p : Fin 10000) (q : Fin 64) :
    k2_pay1 (F := Ideal) x w (ix2 p q) = ∑ k : Fin 64, x (ix2 p k) * w (ix2 k q) := by
  unfold k2_pay1
  have e : shapeCast S10000x64 x shapeCasts_S10000x64_S10000x64 = x := shapeCast_self x _
  show matmul dot_S10000x64_S64x64_S10000x64_1_0_0_1_n_n none (shapeCast S10000x64 x shapeCasts_S10000x64_S10000x64) w
      (constant (F := Ideal) S10000x64 .f32 0x00000000#32) (ix2 p q) = _
  rw [e]
  exact blockProduct_apply x w p q

/-- Where the blocks lie, decided once over the ten points: the hidden block and the output block of point t both start
    at block row t, column block 0; the weight matrix is always its one whole block. -/
theorem blocksAt2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Each of the ten block rows is some point's. -/
theorem pointOf2 : ∀ n : Fin 10, ∃ t : Fin cfg2.N, t.val = n.val :=
  (by decide +kernel : ∀ n : Fin 10, ∃ t : Fin grid2.N, t.val = n.val)

/-- The hidden block at point t is rows 10000·t … of the hidden array. -/
theorem featureBlock2_apply (c : Dev nD) (t : Fin cfg2.N) (p : Fin 10000) (k : Fin 64) (i : Cert.Spec.SN.Idx)
    (h0 : (i 0).val = t.val * 10000 + p.val) (h1 : (i 1).val = k.val) :
    (iblk2 V c 0 t : Vec Ideal S10000x64 .f32) (ix2 p k) = (V c main_v38 : Cert.Spec.SN.Idx → EReal) i := by
  obtain ⟨e00, e01, -⟩ := blocksAt2 t
  unfold iblk2
  rw [View.read_apply]
  show V c main_v38 _ = V c main_v38 _
  congr 1
  funext a
  apply Fin.ext
  match a with
  | ⟨0, _⟩ => show win2_0.index t (0 : Fin 2) * 10000 + 1 * p.val = (i 0).val; rw [e00, h0]; omega
  | ⟨1, _⟩ => show win2_0.index t (1 : Fin 2) * 64 + 1 * k.val = (i 1).val; rw [e01, h1]; omega

/-- The weight block at every point is the whole weight matrix. -/
theorem weightBlock2_apply (c : Dev nD) (t : Fin cfg2.N) (k q : Fin 64) :
    (iblk2 V c 1 t : Vec Ideal S64x64 .f32) (ix2 k q) = (V c main_arg4 : Cert.Spec.SW.Idx → EReal) (ix2 k q) := by
  obtain ⟨-, -, e10, e11, -⟩ := blocksAt2 t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e10]; omega
  | ⟨1, _⟩ => show win2_1.index t (1 : Fin 2) * 64 + 1 * q.val = q.val; rw [e11]; omega

/-- What point t writes back is block t of `rowsTimes` of the two arrays. -/
theorem secondProjection_block (c : Dev nD) (t : Fin cfg2.N) :
    (dat2 (F := Ideal) V c).flushed 2 t
      = ((cfg2.win 2).blk t).view.read (Elt Ideal) (Cert.Spec.rowsTimes (V c main_v38) (V c main_arg4)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64x64) origin2]
  obtain ⟨-, -, -, -, e20, e21⟩ := blocksAt2 t
  funext j
  rw [View.read_apply]
  refine blockProduct_eq_rowsTimes (k2_pay1 (F := Ideal) (iblk2 V c 0 t) (iblk2 V c 1 t)) (iblk2 V c 0 t) (iblk2 V c 1 t)
    (V c main_v38) (V c main_arg4) t.val (secondPayload_apply (iblk2 V c 0 t) (iblk2 V c 1 t))
    (featureBlock2_apply V c t) (weightBlock2_apply V c t) ((win2 2).xinj (grid2.coords t) j) (((cfg2.win 2).blk t).view.emb j) ?_ ?_
  · show win2_2.index t (0 : Fin 2) * 10000 + 1 * (j 0).val = t.val * 10000 + (j 0).val
    rw [e20]; omega
  · show win2_2.index t (1 : Fin 2) * 64 + 1 * (j 1).val = (j 1).val
    rw [e21]; omega

/-- An entry of the output array lies in point t's block iff each coordinate lies in the block's range on its axis. -/
theorem secondProjection_mem (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v39).slice (win2_2.rect t)).set ↔ _
  rw [View.set_slice_whole, Rect.mem_set_unit]
  exact Iff.rfl

/-- Every entry is written: row r by the point r / 10000. -/
theorem secondProjection_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := pointOf2 ⟨(i 0).val / 10000, by omega⟩
  have ht' : t.val = (i 0).val / 10000 := ht
  obtain ⟨-, -, -, -, e20, e21⟩ := blocksAt2 t
  refine ⟨t, flush2_2 t, ?_⟩
  rw [secondProjection_mem]
  intro a
  match a with
  | ⟨0, _⟩ => show win2_2.index t (0 : Fin 2) * 10000 ≤ (i 0).val ∧ (i 0).val < win2_2.index t (0 : Fin 2) * 10000 + 10000; rw [e20]; omega
  | ⟨1, _⟩ => show win2_2.index t (1 : Fin 2) * 64 ≤ (i 1).val ∧ (i 1).val < win2_2.index t (1 : Fin 2) * 64 + 64; rw [e21]; omega

end Projection

/-! ## The two arrays after their runs -/

/-- The first projection's array after the ten points: every row of the features times the first weight matrix. -/
theorem firstProjection (c : Dev nD) :
    ((dat0 (F := Ideal) V c).arrAt 4 cfg0.N : Cert.Spec.SN.Idx → EReal) = Cert.Spec.rowsTimes (V c main_arg0) (V c main_arg2) :=
  (dat0 (F := Ideal) V c).arrAt_eq_of_cover 4 (Cert.Spec.rowsTimes (V c main_arg0) (V c main_arg2))
    (fun t _ => Projection.firstProjection_block V c t) Projection.firstProjection_cover

/-- The second projection's array after the ten points: every row of the hidden features times the second weight matrix. -/
theorem secondProjection (c : Dev nD) :
    ((dat2 (F := Ideal) V c).arrAt 2 cfg2.N : Cert.Spec.SN.Idx → EReal) = Cert.Spec.rowsTimes (V c main_v38) (V c main_arg4) :=
  (dat2 (F := Ideal) V c).arrAt_eq_of_cover 2 (Cert.Spec.rowsTimes (V c main_v38) (V c main_arg4))
    (fun t _ => Projection.secondProjection_block V c t) Projection.secondProjection_cover

end Cert.KernelIdeal.RegionValue
end
-- ==== Proof.Residual.lean ====
/-
  Region 0, second result: the residual projection.

  The body of region 0 takes a block of 10000 feature rows, the whole 64 by 64 projection matrix and the whole bias of
  64 entries, multiplies the rows by the matrix into a zero accumulator and adds the bias to every row. Over the
  extended reals every operation is exact, so one entry of the body's result is
      (p, q) ↦ (∑ k, x (p, k) · W (k, q)) + b q.
  The grid has ten points; at point t the feature block and the result block are rows 10000 t … 10000 t + 9999 of
  their arrays, and the matrix and the bias are read whole. Hence what point t writes back is block t of the one
  whole-array function "rows times matrix, plus the bias on every row"; row r lies in the block of point r / 10000, so
  the ten blocks cover the array and it ends holding that function.
-/
import proofs.«410912_j29927332118584_1_alg».proof.Proof.Gen.KernelIdeal.Frame
import proofs.«410912_j29927332118584_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx
open scoped BigOperators

namespace Residual

/-! ## One block of the product, entry by entry -/

theorem lhsRow (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsCol (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsRow (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsCol (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem blockProduct_apply (x : FVec Ideal S10000x64 .f32) (W : FVec Ideal S64x64 .f32) (p : Fin 10000) (q : Fin 64) :
    matmul dot_S10000x64_S64x64_S10000x64_1_0_0_1_n_n none x W (constant (F := Ideal) S10000x64 .f32 0x00000000#32) (ix2 p q)
      = ∑ k : Fin 64, x (ix2 p k) * W (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsRow _ _
    | ⟨1, _⟩ => exact (lhsCol _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhsRow _ _).trans hk
    | ⟨1, _⟩ => exact rhsCol _ _)
  rw [el, er]

theorem biasRows_apply (b : Vec Ideal S64 .f32) (p : Fin 10000) (q : Fin 64) :
    broadcastTo S10000x64 (shapeCast S1x64 b shapeCasts_S64_S1x64) broadcasts_S1x64_S10000x64 (ix2 p q) = b (ix1 q) := by
  rw [broadcastTo_1b_ab_apply, shapeCast_a_1a_apply]

theorem payload_apply (x : Vec Ideal S10000x64 .f32) (W : Vec Ideal S64x64 .f32) (b : Vec Ideal S64 .f32) (p : Fin 10000) (q : Fin 64) :
    k0_pay2 (F := Ideal) x W b (ix2 p q) = (∑ k : Fin 64, x (ix2 p k) * W (ix2 k q)) + b (ix1 q) := by
  unfold k0_pay2
  rw [addf_apply, blockProduct_apply, biasRows_apply]

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- Where each window's block sits at grid point `t`: the row blocks of the features and of the result are block `t`;
    the weight matrix and the bias are whole. -/
theorem blockAt : ∀ t : Fin cfg0.N, win0_0.index t (0 : Fin 2) = t.val ∧ win0_0.index t (1 : Fin 2) = 0
    ∧ win0_2.index t (0 : Fin 2) = 0 ∧ win0_2.index t (1 : Fin 2) = 0
    ∧ win0_3.index t (0 : Fin 1) = 0
    ∧ win0_5.index t (0 : Fin 2) = t.val ∧ win0_5.index t (1 : Fin 2) = 0 :=
  (by decide +kernel : ∀ t : Fin grid0.N, _)

end Residual

variable (V : (c : Dev nD) → (b : Ref sig .tc) → Buf (Elt Ideal) ((c : Thread nD τ).loc b))

namespace Residual

/-- The feature block at point `t` is rows `10000 t … 10000 t + 9999` of the feature array. -/
theorem featureBlock_apply (c : Dev nD) (t : Fin cfg0.N) (y : S10000x64.Idx) (i : Cert.Spec.SN.Idx)
    (h0 : (i 0).val = t.val * 10000 + (y 0).val) (h1 : (i 1).val = (y 1).val) :
    (iblk0 V c 0 t : Vec Ideal S10000x64 .f32) y = (V c main_arg0 : Cert.Spec.SN.Idx → EReal) i := by
  obtain ⟨e0, e1, -⟩ := blockAt t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 64 + 1 * (y 1).val = (i 1).val; rw [e1, h1]; omega

/-- The weight block at every point is the whole weight matrix. -/
theorem weightBlock_apply (c : Dev nD) (t : Fin cfg0.N) (y : S64x64.Idx) :
    (iblk0 V c 2 t : Vec Ideal S64x64 .f32) y = (V c main_arg6 : Cert.Spec.SW.Idx → EReal) y := by
  obtain ⟨-, -, e0, e1, -⟩ := blockAt t
  unfold iblk0
  rw [View.read_apply]
  show V c main_arg6 _ = V c main_arg6 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The bias block at every point is the whole bias. -/
theorem biasBlock_apply (c : Dev nD) (t : Fin cfg0.N) (y : S64.Idx) :
    (iblk0 V c 3 t : Vec Ideal S64 .f32) y = (V c main_arg7 : Cert.Spec.SB.Idx → EReal) y := by
  obtain ⟨-, -, -, -, e0, -⟩ := blockAt t
  unfold iblk0
  rw [View.read_apply]
  show V c main_arg7 _ = V c main_arg7 _
  congr 1
  funext a
  apply Fin.ext
  match a with
  | ⟨0, _⟩ => show win0_3.index t (0 : Fin 1) * 64 + 1 * (y 0).val = (y 0).val; rw [e0]; omega

/-- One entry of the body's result from entries of its three blocks, when those are entries of three whole arrays. -/
theorem pointValue (x : Vec Ideal S10000x64 .f32) (W : Vec Ideal S64x64 .f32) (b : Vec Ideal S64 .f32)
    (A : Cert.Spec.SN.Idx → EReal) (M : Cert.Spec.SW.Idx → EReal) (β : Cert.Spec.SB.Idx → EReal)
    (p : Fin 10000) (q : Fin 64) (r : Fin 100000)
    (hx : ∀ k : Fin 64, x (ix2 p k) = A (ix2 r k)) (hW : ∀ k : Fin 64, W (ix2 k q) = M (ix2 k q)) (hb : b (ix1 q) = β (ix1 q)) :
    k0_pay2 (F := Ideal) x W b (ix2 p q) = Cert.Spec.plusRow (Cert.Spec.rowsTimes A M) β (ix2 r q) := by
  rw [payload_apply, Cert.Spec.plusRow_ix2, Cert.Spec.rowsTimes_ix2, hb]
  congr 1
  exact Finset.sum_congr rfl fun k _ => by rw [hx k, hW k]

/-- What point `t` writes back is block `t` of the projection with its bias, taken of the whole arrays. -/
theorem writtenBack (c : Dev nD) (t : Fin cfg0.N) :
    (dat0 (F := Ideal) V c).flushed 5 t
      = ((cfg0.win 5).blk t).view.read (Elt Ideal)
          (Cert.Spec.plusRow (Cert.Spec.rowsTimes (V c main_arg0) (V c main_arg6)) (V c main_arg7)) := by
  show (cfg0.win 5).cut (grid0.coords t) ((dat0 (F := Ideal) V c).after 5 t) = _
  rw [after0_5]
  unfold out0_5
  rw [View.canon_unit_zero zeros2]
  simp only [View.ld_unit_zero (S := S10000x64) zeros2, View.ld_unit_zero (S := S64x64) zeros2, View.ld_unit_zero (S := S64) zeros1]
  obtain ⟨-, -, -, -, -, e0, e1⟩ := blockAt t
  have hN : cfg0.N = 10 := N_0
  have ht : t.val < cfg0.N := t.isLt
  refine funext fun (j : S10000x64.Idx) => ?_
  obtain ⟨p, q, rfl⟩ : ∃ (p : Fin 10000) (q : Fin 64), j = ix2 p q := ⟨j 0, j 1, eq_ix2 j⟩
  have hr : t.val * 10000 + p.val < 100000 := by have := p.isLt; omega
  have hemb : ((cfg0.win 5).blk t).view.emb (ix2 p q) = (ix2 (⟨t.val * 10000 + p.val, hr⟩ : Fin 100000) q : Cert.Spec.SN.Idx) := by
    funext a
    apply Fin.ext
    match a with
    | ⟨0, _⟩ => show win0_5.index t (0 : Fin 2) * 10000 + 1 * p.val = t.val * 10000 + p.val; rw [e0]; omega
    | ⟨1, _⟩ => show win0_5.index t (1 : Fin 2) * 64 + 1 * q.val = q.val; rw [e1]; omega
  show k0_pay2 (F := Ideal) (iblk0 V c 0 t) (iblk0 V c 2 t) (iblk0 V c 3 t) (ix2 p q)
    = Cert.Spec.plusRow (Cert.Spec.rowsTimes (V c main_arg0) (V c main_arg6)) (V c main_arg7) (((cfg0.win 5).blk t).view.emb (ix2 p q))
  rw [hemb]
  refine pointValue _ _ _ _ _ _ p q ⟨_, hr⟩ (fun k => ?_) (fun k => ?_) ?_
  · exact featureBlock_apply V c t (ix2 p k) (ix2 ⟨_, hr⟩ k) rfl rfl
  · exact weightBlock_apply V c t (ix2 k q)
  · exact biasBlock_apply V c t (ix1 q)

/-- An index of the result array lies in point `t`'s block iff each coordinate lies in the block's range on its axis. -/
theorem mem_block (t : Fin cfg0.N) (i : Cert.Spec.SN.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v30_1).slice (win0_5.rect t)).set ↔ _
  rw [View.set_slice_whole, Rect.mem_set_unit]
  exact Iff.rfl

/-- Row `r` of the result lies in the block of point `r / 10000`, and every point writes back: the blocks cover the array. -/
theorem covered (i : Cert.Spec.SN.Idx) :
    ∃ t : Fin cfg0.N, (cfg0.win 5).flush t = true ∧ i ∈ ((cfg0.win 5).blk t).view.set := by
  have hN : cfg0.N = 10 := N_0
  have hi0 : (i 0).val < 100000 := idx2_lt0 i
  have hi1 : (i 1).val < 64 := idx2_lt1 i
  obtain ⟨t, ht⟩ : ∃ t : Fin cfg0.N, t.val = (i 0).val / 10000 := ⟨⟨(i 0).val / 10000, by omega⟩, rfl⟩
  obtain ⟨-, -, -, -, -, e0, e1⟩ := blockAt t
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; rw [e0, ht]; omega
  | ⟨1, _⟩ => show win0_5.index t (1 : Fin 2) * 64 ≤ (i 1).val ∧ (i 1).val < win0_5.index t (1 : Fin 2) * 64 + 64; rw [e1]; omega

end Residual

/-- After region 0 the second result array holds the features times the projection matrix, plus the bias on every row. -/
theorem residualProjection (c : Dev nD) :
    ((dat0 (F := Ideal) V c).arrAt 5 cfg0.N : Cert.Spec.SN.Idx → EReal)
      = Cert.Spec.plusRow (Cert.Spec.rowsTimes (V c main_arg0) (V c main_arg6)) (V c main_arg7) :=
  (dat0 (F := Ideal) V c).arrAt_eq_of_cover 5
    (Cert.Spec.plusRow (Cert.Spec.rowsTimes (V c main_arg0) (V c main_arg6)) (V c main_arg7))
    (fun t _ => Residual.writtenBack V c t) Residual.covered

end Cert.KernelIdeal.RegionValue
end
-- ==== Proof.Pointwise.lean ====
/-
  The two pointwise regions of the kernel program (bias then rectifier; bias then residual sum), each read as a
  function of whole arrays over the extended reals.

  Both regions walk a 100000 by 64 array in ten blocks of 10000 rows: block t holds rows 10000·t … 10000·t + 9999
  and all 64 columns, while the bias (64 numbers) is seen whole at every step. At local position (p, q) of block t
  the body reads the row array at global row 10000·t + p, column q, and the bias at q; what it stores there is

    the rectifier region :  max (a (r, q) + b q) 0
    the combining region :  (a (r, q) + b q) + s (r, q)

  with r = 10000·t + p. These are exactly the entries of clampBelow (plusRow a b) and of plus (plusRow a b) s at
  (r, q). Since every row r lies in block r / 10000, the ten blocks fill the array, so the array after the region
  is that function everywhere.
-/
import proofs.«410912_j29927332118584_1_alg».proof.Proof.Gen.KernelIdeal.Frame
import proofs.«410912_j29927332118584_1_alg».proof.Proof.Spec
import Idealize.ShloMosaic.Lib.Pipeline.Value
import Idealize.ShloMosaic.Lib.ValueLayout
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx Cert.Spec

variable (V : (c : Dev nD) → (b : Ref sig .tc) → Buf (Elt Ideal) ((c : Thread nD τ).loc b))

/-! ## What is common to both regions -/

/-- A block is loaded and stored from its corner: the offsets are all zero, in rank two -/
theorem offsets2 : (![0, 0] : Fin 2 → Nat) = fun _ => 0 := funext fun a => by fin_cases a <;> rfl
/-- and in rank one. -/
theorem offsets1 : (![0] : Fin 1 → Nat) = fun _ => 0 := funext fun a => by fin_cases a; rfl

/-- The bias, viewed as a single row and then repeated down 10000 rows, has at (p, q) the bias entry q:
    the row coordinate is forgotten. -/
theorem biasRow_apply (b : Vec Ideal S64 .f32) (hc : S64.ShapeCasts S1x64) (hb : S1x64.Broadcasts S10000x64)
    (p : Fin 10000) (q : Fin 64) :
    broadcastTo S10000x64 (shapeCast S1x64 b hc) hb (ix2 p q) = b (ix1 q) := by
  rw [broadcastTo_1b_ab_apply, shapeCast_a_1a_apply]

/-! ## The rectifier region: max (a + bias row) 0 -/

/-- The body's stored value at local position (p, q): the block entry plus the bias at q, cut off below at zero.
    The recast of the block to its own shape changes nothing, and the constant it is compared with is the
    number zero. -/
theorem rectPay_apply (x : Vec Ideal S10000x64 .f32) (b : Vec Ideal S64 .f32) (p : Fin 10000) (q : Fin 64) :
    k1_pay1 (F := Ideal) x b (ix2 p q) = max (x (ix2 p q) + b (ix1 q)) 0 := by
  unfold k1_pay1
  rw [maximumf_apply, addf_apply, shapeCast_self, biasRow_apply, broadcast_apply, Ideal.ofBits_def,
    Ideal.ofBits_zero_f32]

/-- Where the blocks sit, for each of the ten steps t: the row windows (input and output) are at block row t,
    block column 0; the bias window is always at block 0. -/
theorem grid1_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 ∧ t.val < 10 :=
  (by decide +kernel : ∀ t : Fin grid1.N, _)

/-- The input block of step t at (p, q) is the input array at row 10000·t + p, column q. -/
theorem rows1_apply (c : Dev nD) (t : Fin cfg1.N) (p : Fin 10000) (q : Fin 64) (i : SN.Idx)
    (h0 : (i 0).val = 10000 * t.val + p.val) (h1 : (i 1).val = q.val) :
    (iblk1 V c 0 t : Vec Ideal S10000x64 .f32) (ix2 p q) = (V c main_v37 : SN.Idx → EReal) i := by
  obtain ⟨e0, e1, -⟩ := grid1_facts t
  unfold iblk1
  rw [View.read_apply]
  show (V c main_v37 : SN.Idx → EReal) _ = _
  congr 1
  funext a
  apply Fin.ext
  match a with
  | ⟨0, _⟩ => show win1_0.index t (0 : Fin 2) * 10000 + 1 * p.val = (i 0).val; rw [e0, h0]; omega
  | ⟨1, _⟩ => show win1_0.index t (1 : Fin 2) * 64 + 1 * q.val = (i 1).val; rw [e1, h1]; omega

/-- The bias block of any step is the whole bias. -/
theorem bias1_apply (c : Dev nD) (t : Fin cfg1.N) (q : Fin 64) :
    (iblk1 V c 1 t : Vec Ideal S64 .f32) (ix1 q) = (V c main_arg3 : SB.Idx → EReal) (ix1 q) := by
  obtain ⟨-, -, e2, -⟩ := grid1_facts t
  unfold iblk1
  rw [View.read_apply]
  show (V c main_arg3 : SB.Idx → EReal) _ = _
  congr 1
  funext a
  apply Fin.ext
  match a with
  | ⟨0, _⟩ => show win1_1.index t (0 : Fin 1) * 64 + 1 * q.val = q.val; rw [e2]; omega

/-- What step t writes back is block t of the whole-array function: at (p, q) both sides are
    max (a (10000·t + p, q) + b q) 0. -/
theorem rectified_block (c : Dev nD) (t : Fin cfg1.N) :
    (dat1 (F := Ideal) V c).flushed 2 t
      = ((cfg1.win 2).blk t).view.read (Elt Ideal) (clampBelow (plusRow (V c main_v37) (V c main_arg3))) := by
  show (cfg1.win 2).cut (grid1.coords t) ((dat1 V c).after 2 t) = _
  rw [after1_2]
  unfold out1_2
  rw [View.canon_unit_zero offsets2]
  simp only [View.ld_unit_zero (S := S10000x64) offsets2, View.ld_unit_zero (S := S64) offsets1]
  funext j
  obtain ⟨p, q, rfl⟩ : ∃ (p : Fin 10000) (q : Fin 64), j = ix2 p q := ⟨j 0, j 1, eq_ix2 (n0 := 10000) (n1 := 64) j⟩
  obtain ⟨-, -, -, e3, e4, ht⟩ := grid1_facts t
  have hr : 10000 * t.val + p.val < 100000 := by have := p.isLt; omega
  have hi : ((cfg1.win 2).blk t).view.emb (ix2 p q) = (ix2 (⟨10000 * t.val + p.val, hr⟩ : Fin 100000) q : SN.Idx) := by
    funext a
    apply Fin.ext
    match a with
    | ⟨0, _⟩ => show win1_2.index t (0 : Fin 2) * 10000 + 1 * p.val = 10000 * t.val + p.val; rw [e3]; omega
    | ⟨1, _⟩ => show win1_2.index t (1 : Fin 2) * 64 + 1 * q.val = q.val; rw [e4]; omega
  show k1_pay1 (F := Ideal) (iblk1 V c 0 t) (iblk1 V c 1 t) (ix2 p q)
    = clampBelow (plusRow (V c main_v37) (V c main_arg3)) (((cfg1.win 2).blk t).view.emb (ix2 p q))
  rw [hi]
  refine (rectPay_apply (iblk1 V c 0 t) (iblk1 V c 1 t) p q).trans ?_
  exact congrArg₂ (fun a b : EReal => max (a + b) 0)
    (rows1_apply V c t p q (ix2 (⟨10000 * t.val + p.val, hr⟩ : Fin 100000) q) rfl rfl) (bias1_apply V c t q)

/-- An index of the output array lies in block t exactly when each coordinate lies in the block's range. -/
theorem mem_block1 (t : Fin cfg1.N) (i : SN.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v38).slice (win1_2.rect t)).set ↔ _
  rw [View.set_slice_whole, Rect.mem_set_unit]
  exact Iff.rfl

/-- Row r lies in block r / 10000, and every step writes its block back: the ten blocks fill the array. -/
theorem covered1 (i : SN.Idx) :
    ∃ t : Fin cfg1.N, (cfg1.win 2).flush t = true ∧ i ∈ ((cfg1.win 2).blk t).view.set := by
  have h0 : (i 0).val < 100000 := (i 0).isLt
  have h1 : (i 1).val < 64 := (i 1).isLt
  have hN : grid1.N = 10 := N_1
  obtain ⟨t, ht⟩ : ∃ t : Fin cfg1.N, t.val = (i 0).val / 10000 :=
    ⟨⟨(i 0).val / 10000, by show _ < grid1.N; rw [hN]; omega⟩, rfl⟩
  obtain ⟨-, -, -, e3, e4, -⟩ := grid1_facts t
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    rw [e3, ht]; omega
  | ⟨1, _⟩ =>
    show win1_2.index t (1 : Fin 2) * 64 ≤ (i 1).val ∧ (i 1).val < win1_2.index t (1 : Fin 2) * 64 + 64
    rw [e4]; omega

/-- After the rectifier region its output array is max (a + bias row) 0, entry by entry. -/
theorem rectified (c : Dev nD) :
    ((dat1 (F := Ideal) V c).arrAt 2 cfg1.N : Cert.Spec.SN.Idx → EReal)
      = Cert.Spec.clampBelow (Cert.Spec.plusRow (V c main_v37) (V c main_arg3)) :=
  (dat1 (F := Ideal) V c).arrAt_eq_of_cover 2 (clampBelow (plusRow (V c main_v37) (V c main_arg3)))
    (fun t _ => rectified_block V c t) covered1

/-! ## The combining region: (a + bias row) + s -/

/-- The body's stored value at local position (p, q): the first block's entry plus the bias at q, plus the second
    block's entry. Both recasts of a block to its own shape change nothing. -/
theorem sumPay_apply (x : Vec Ideal S10000x64 .f32) (b : Vec Ideal S64 .f32) (s : Vec Ideal S10000x64 .f32)
    (p : Fin 10000) (q : Fin 64) :
    k3_pay1 (F := Ideal) x b s (ix2 p q) = (x (ix2 p q) + b (ix1 q)) + s (ix2 p q) := by
  unfold k3_pay1
  rw [addf_apply, addf_apply, shapeCast_self, shapeCast_self, biasRow_apply]

/-- Where the blocks sit, for each of the ten steps t: the three row windows (two inputs, one output) are at block
    row t, block column 0; the bias window is always at block 0. -/
theorem grid3_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0
    ∧ win3_3.index t (0 : Fin 2) = t.val ∧ win3_3.index t (1 : Fin 2) = 0 ∧ t.val < 10 :=
  (by decide +kernel : ∀ t : Fin grid3.N, _)

/-- The first input block of step t at (p, q) is its array at row 10000·t + p, column q. -/
theorem rows3_apply (c : Dev nD) (t : Fin cfg3.N) (p : Fin 10000) (q : Fin 64) (i : SN.Idx)
    (h0 : (i 0).val = 10000 * t.val + p.val) (h1 : (i 1).val = q.val) :
    (iblk3 V c 0 t : Vec Ideal S10000x64 .f32) (ix2 p q) = (V c main_v46 : SN.Idx → EReal) i := by
  obtain ⟨e0, e1, -⟩ := grid3_facts t
  unfold iblk3
  rw [View.read_apply]
  show (V c main_v46 : SN.Idx → EReal) _ = _
  congr 1
  funext a
  apply Fin.ext
  match a with
  | ⟨0, _⟩ => show win3_0.index t (0 : Fin 2) * 10000 + 1 * p.val = (i 0).val; rw [e0, h0]; omega
  | ⟨1, _⟩ => show win3_0.index t (1 : Fin 2) * 64 + 1 * q.val = (i 1).val; rw [e1, h1]; omega

/-- The bias block of any step is the whole bias. -/
theorem bias3_apply (c : Dev nD) (t : Fin cfg3.N) (q : Fin 64) :
    (iblk3 V c 1 t : Vec Ideal S64 .f32) (ix1 q) = (V c main_arg5 : SB.Idx → EReal) (ix1 q) := by
  obtain ⟨-, -, e2, -⟩ := grid3_facts t
  unfold iblk3
  rw [View.read_apply]
  show (V c main_arg5 : SB.Idx → EReal) _ = _
  congr 1
  funext a
  apply Fin.ext
  match a with
  | ⟨0, _⟩ => show win3_1.index t (0 : Fin 1) * 64 + 1 * q.val = q.val; rw [e2]; omega

/-- The second input block of step t at (p, q) is its array at row 10000·t + p, column q. -/
theorem resid3_apply (c : Dev nD) (t : Fin cfg3.N) (p : Fin 10000) (q : Fin 64) (i : SN.Idx)
    (h0 : (i 0).val = 10000 * t.val + p.val) (h1 : (i 1).val = q.val) :
    (iblk3 V c 2 t : Vec Ideal S10000x64 .f32) (ix2 p q) = (V c main_v30_1 : SN.Idx → EReal) i := by
  obtain ⟨-, -, -, e3, e4, -⟩ := grid3_facts t
  unfold iblk3
  rw [View.read_apply]
  show (V c main_v30_1 : SN.Idx → EReal) _ = _
  congr 1
  funext a
  apply Fin.ext
  match a with
  | ⟨0, _⟩ => show win3_2.index t (0 : Fin 2) * 10000 + 1 * p.val = (i 0).val; rw [e3, h0]; omega
  | ⟨1, _⟩ => show win3_2.index t (1 : Fin 2) * 64 + 1 * q.val = (i 1).val; rw [e4, h1]; omega

/-- What step t writes back is block t of the whole-array function: at (p, q) both sides are
    (a (10000·t + p, q) + b q) + s (10000·t + p, q). -/
theorem combined_block (c : Dev nD) (t : Fin cfg3.N) :
    (dat3 (F := Ideal) V c).flushed 3 t
      = ((cfg3.win 3).blk t).view.read (Elt Ideal)
          (plus (plusRow (V c main_v46) (V c main_arg5)) (V c main_v30_1)) := by
  show (cfg3.win 3).cut (grid3.coords t) ((dat3 V c).after 3 t) = _
  rw [after3_3]
  unfold out3_3
  rw [View.canon_unit_zero offsets2]
  simp only [View.ld_unit_zero (S := S10000x64) offsets2, View.ld_unit_zero (S := S64) offsets1]
  funext j
  obtain ⟨p, q, rfl⟩ : ∃ (p : Fin 10000) (q : Fin 64), j = ix2 p q := ⟨j 0, j 1, eq_ix2 (n0 := 10000) (n1 := 64) j⟩
  obtain ⟨-, -, -, -, -, e5, e6, ht⟩ := grid3_facts t
  have hr : 10000 * t.val + p.val < 100000 := by have := p.isLt; omega
  have hi : ((cfg3.win 3).blk t).view.emb (ix2 p q) = (ix2 (⟨10000 * t.val + p.val, hr⟩ : Fin 100000) q : SN.Idx) := by
    funext a
    apply Fin.ext
    match a with
    | ⟨0, _⟩ => show win3_3.index t (0 : Fin 2) * 10000 + 1 * p.val = 10000 * t.val + p.val; rw [e5]; omega
    | ⟨1, _⟩ => show win3_3.index t (1 : Fin 2) * 64 + 1 * q.val = q.val; rw [e6]; omega
  show k3_pay1 (F := Ideal) (iblk3 V c 0 t) (iblk3 V c 1 t) (iblk3 V c 2 t) (ix2 p q)
    = plus (plusRow (V c main_v46) (V c main_arg5)) (V c main_v30_1) (((cfg3.win 3).blk t).view.emb (ix2 p q))
  rw [hi]
  refine (sumPay_apply (iblk3 V c 0 t) (iblk3 V c 1 t) (iblk3 V c 2 t) p q).trans ?_
  have ha := rows3_apply V c t p q (ix2 (⟨10000 * t.val + p.val, hr⟩ : Fin 100000) q) rfl rfl
  have hb := bias3_apply V c t q
  have hs := resid3_apply V c t p q (ix2 (⟨10000 * t.val + p.val, hr⟩ : Fin 100000) q) rfl rfl
  exact congrArg₂ (fun u v : EReal => u + v) (congrArg₂ (fun u v : EReal => u + v) ha hb) hs

/-- An index of the output array lies in block t exactly when each coordinate lies in the block's range. -/
theorem mem_block3 (t : Fin cfg3.N) (i : SN.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v47).slice (win3_3.rect t)).set ↔ _
  rw [View.set_slice_whole, Rect.mem_set_unit]
  exact Iff.rfl

/-- Row r lies in block r / 10000, and every step writes its block back: the ten blocks fill the array. -/
theorem covered3 (i : SN.Idx) :
    ∃ t : Fin cfg3.N, (cfg3.win 3).flush t = true ∧ i ∈ ((cfg3.win 3).blk t).view.set := by
  have h0 : (i 0).val < 100000 := (i 0).isLt
  have h1 : (i 1).val < 64 := (i 1).isLt
  have hN : grid3.N = 10 := N_3
  obtain ⟨t, ht⟩ : ∃ t : Fin cfg3.N, t.val = (i 0).val / 10000 :=
    ⟨⟨(i 0).val / 10000, by show _ < grid3.N; rw [hN]; omega⟩, rfl⟩
  obtain ⟨-, -, -, -, -, e5, e6, -⟩ := grid3_facts t
  refine ⟨t, flush3_3 t, ?_⟩
  rw [mem_block3]
  intro a
  match a with
  | ⟨0, _⟩ =>
    show win3_3.index t (0 : Fin 2) * 10000 ≤ (i 0).val ∧ (i 0).val < win3_3.index t (0 : Fin 2) * 10000 + 10000
    rw [e5, ht]; omega
  | ⟨1, _⟩ =>
    show win3_3.index t (1 : Fin 2) * 64 ≤ (i 1).val ∧ (i 1).val < win3_3.index t (1 : Fin 2) * 64 + 64
    rw [e6]; omega

/-- After the combining region its output array is (a + bias row) + s, entry by entry. -/
theorem combined (c : Dev nD) :
    ((dat3 (F := Ideal) V c).arrAt 3 cfg3.N : Cert.Spec.SN.Idx → EReal)
      = Cert.Spec.plus (Cert.Spec.plusRow (V c main_v46) (V c main_arg5)) (V c main_v30_1) :=
  (dat3 (F := Ideal) V c).arrAt_eq_of_cover 3 (plus (plusRow (V c main_v46) (V c main_arg5)) (V c main_v30_1))
    (fun t _ => combined_block V c t) covered3

end Cert.KernelIdeal.RegionValue
end
-- ==== Proof.KernelValue.lean ====
/-
  The kernel program's result as ONE function of its arguments, read off the contents of the buffers at each boundary
  between its host stretches and its four dense regions.

  With s the source column, d the target column and n the edge weights of the edge table (self loops appended), and
      aggregate h = the rows of h gathered at the wrapped sources (filled where the bounds test fails), scaled by n,
                    summed into the rows d names,
  the result is
      (aggregate ((clampBelow (aggregate (x · W1) + b1)) · W2) + b2) + (x · W_emb + b_emb):
  each dense region leaves its whole-array function of the contents it was entered at, each stretch its own
  arithmetic of the contents it starts from, and everything a stretch or a region does not write it leaves alone.
-/
import proofs.«410912_j29927332118584_1_alg».proof.Proof.Gen.KernelIdeal.Frame
import proofs.«410912_j29927332118584_1_alg».proof.Proof.Opening
import proofs.«410912_j29927332118584_1_alg».proof.Proof.AggregationOne
import proofs.«410912_j29927332118584_1_alg».proof.Proof.AggregationTwo
import proofs.«410912_j29927332118584_1_alg».proof.Proof.Projection
import proofs.«410912_j29927332118584_1_alg».proof.Proof.Residual
import proofs.«410912_j29927332118584_1_alg».proof.Proof.Pointwise

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostStretch Cert.KernelIdeal.SourceRange Cert.KernelIdeal.RegionValue
open Cert.Spec

/-- One aggregation along the edge table `ei`: gather at the wrapped sources, scale by the edge weight, sum into the targets. -/
def aggregate (h : SN.Idx → EReal) (ei : IVec S2x1600000 32) : SN.Idx → EReal :=
  scatterScaled (F := Ideal) (takeFilled (F := Ideal) h (sources ei)) (targets ei) (edgeWeight (F := Ideal) ei)

/-- The whole computation: two aggregated layers with a rectifier between them, plus the residual projection. -/
def kernelOut (x : SN.Idx → EReal) (ei : IVec S2x1600000 32) (W1 : SW.Idx → EReal) (b1 : SB.Idx → EReal)
    (W2 : SW.Idx → EReal) (b2 : SB.Idx → EReal) (Wemb : SW.Idx → EReal) (bemb : SB.Idx → EReal) : SN.Idx → EReal :=
  plus (plusRow (aggregate (rowsTimes (clampBelow (plusRow (aggregate (rowsTimes x W1) ei) b1)) W2) ei) b2)
    (plusRow (rowsTimes x Wemb) bemb)

variable (m : (ℓ : Loc nD τ sig) → Buf (Elt Ideal) ℓ) (ρ : Dev nD → PrngReg) (c : Dev nD)

/-! ## At the first region's entry -/

theorem entry_sources : W3 m ρ c (Proc.devRef .tc main_v3) = sources (m ((c.tc : Thread nD τ).loc main_arg1)) :=
  opening_sources (W0 m ρ c)
theorem entry_targets : W3 m ρ c (Proc.devRef .tc main_v6) = targets (m ((c.tc : Thread nD τ).loc main_arg1)) :=
  opening_targets (W0 m ρ c)
theorem entry_weights : W3 m ρ c (Proc.devRef .tc main_v29) = edgeWeight (F := Ideal) (m ((c.tc : Thread nD τ).loc main_arg1)) :=
  opening_weights (W0 m ρ c)
theorem entry_arg0 : W3 m ρ c (Proc.devRef .tc main_arg0) = m ((c.tc : Thread nD τ).loc main_arg0) := opening_keeps_arg0 (W0 m ρ c)
theorem entry_arg2 : W3 m ρ c (Proc.devRef .tc main_arg2) = m ((c.tc : Thread nD τ).loc main_arg2) := opening_keeps_arg2 (W0 m ρ c)
theorem entry_arg3 : W3 m ρ c (Proc.devRef .tc main_arg3) = m ((c.tc : Thread nD τ).loc main_arg3) := opening_keeps_arg3 (W0 m ρ c)
theorem entry_arg4 : W3 m ρ c (Proc.devRef .tc main_arg4) = m ((c.tc : Thread nD τ).loc main_arg4) := opening_keeps_arg4 (W0 m ρ c)
theorem entry_arg5 : W3 m ρ c (Proc.devRef .tc main_arg5) = m ((c.tc : Thread nD τ).loc main_arg5) := opening_keeps_arg5 (W0 m ρ c)
theorem entry_arg6 : W3 m ρ c (Proc.devRef .tc main_arg6) = m ((c.tc : Thread nD τ).loc main_arg6) := opening_keeps_arg6 (W0 m ρ c)
theorem entry_arg7 : W3 m ρ c (Proc.devRef .tc main_arg7) = m ((c.tc : Thread nD τ).loc main_arg7) := opening_keeps_arg7 (W0 m ρ c)

/-! ## After the first region: the first projection and the residual projection -/

theorem projected1 : (W4 m ρ c (Proc.devRef .tc main_v30_0) : SN.Idx → EReal)
    = rowsTimes (m ((c.tc : Thread nD τ).loc main_arg0)) (m ((c.tc : Thread nD τ).loc main_arg2)) := by
  refine (W4_arr m ρ c 4).trans ((firstProjection (V3 m ρ) c).trans ?_)
  rw [show V3 m ρ c main_arg0 = _ from entry_arg0 m ρ c, show V3 m ρ c main_arg2 = _ from entry_arg2 m ρ c]

theorem residual : (W4 m ρ c (Proc.devRef .tc main_v30_1) : SN.Idx → EReal)
    = plusRow (rowsTimes (m ((c.tc : Thread nD τ).loc main_arg0)) (m ((c.tc : Thread nD τ).loc main_arg6))) (m ((c.tc : Thread nD τ).loc main_arg7)) := by
  refine (W4_arr m ρ c 5).trans ((residualProjection (V3 m ρ) c).trans ?_)
  rw [show V3 m ρ c main_arg0 = _ from entry_arg0 m ρ c, show V3 m ρ c main_arg6 = _ from entry_arg6 m ρ c,
    show V3 m ρ c main_arg7 = _ from entry_arg7 m ρ c]

theorem after1_sources : W4 m ρ c (Proc.devRef .tc main_v3) = sources (m ((c.tc : Thread nD τ).loc main_arg1)) :=
  (W4_of_ne m ρ c main_v3 (by decide)).trans (entry_sources m ρ c)
theorem after1_targets : W4 m ρ c (Proc.devRef .tc main_v6) = targets (m ((c.tc : Thread nD τ).loc main_arg1)) :=
  (W4_of_ne m ρ c main_v6 (by decide)).trans (entry_targets m ρ c)
theorem after1_weights : W4 m ρ c (Proc.devRef .tc main_v29) = edgeWeight (F := Ideal) (m ((c.tc : Thread nD τ).loc main_arg1)) :=
  (W4_of_ne m ρ c main_v29 (by decide)).trans (entry_weights m ρ c)
theorem after1_arg3 : W4 m ρ c (Proc.devRef .tc main_arg3) = m ((c.tc : Thread nD τ).loc main_arg3) :=
  (W4_of_ne m ρ c main_arg3 (by decide)).trans (entry_arg3 m ρ c)
theorem after1_arg4 : W4 m ρ c (Proc.devRef .tc main_arg4) = m ((c.tc : Thread nD τ).loc main_arg4) :=
  (W4_of_ne m ρ c main_arg4 (by decide)).trans (entry_arg4 m ρ c)
theorem after1_arg5 : W4 m ρ c (Proc.devRef .tc main_arg5) = m ((c.tc : Thread nD τ).loc main_arg5) :=
  (W4_of_ne m ρ c main_arg5 (by decide)).trans (entry_arg5 m ρ c)

/-! ## At the second region's entry: the first aggregation -/

theorem aggregated1 : (W6 m ρ c (Proc.devRef .tc main_v37) : SN.Idx → EReal)
    = aggregate (rowsTimes (m ((c.tc : Thread nD τ).loc main_arg0)) (m ((c.tc : Thread nD τ).loc main_arg2))) (m ((c.tc : Thread nD τ).loc main_arg1)) := by
  refine (first_aggregate (W4 m ρ c)).trans ?_
  rw [after1_sources m ρ c, after1_targets m ρ c, after1_weights m ρ c]
  unfold aggregate
  rw [← projected1 m ρ c]

theorem mid_arg3 : W6 m ρ c (Proc.devRef .tc main_arg3) = m ((c.tc : Thread nD τ).loc main_arg3) :=
  (first_keeps_arg3 (W4 m ρ c)).trans (after1_arg3 m ρ c)
theorem mid_arg4 : W6 m ρ c (Proc.devRef .tc main_arg4) = m ((c.tc : Thread nD τ).loc main_arg4) :=
  (first_keeps_arg4 (W4 m ρ c)).trans (after1_arg4 m ρ c)
theorem mid_arg5 : W6 m ρ c (Proc.devRef .tc main_arg5) = m ((c.tc : Thread nD τ).loc main_arg5) :=
  (first_keeps_arg5 (W4 m ρ c)).trans (after1_arg5 m ρ c)
theorem mid_residual : W6 m ρ c (Proc.devRef .tc main_v30_1) = W4 m ρ c (Proc.devRef .tc main_v30_1) := first_keeps_v30_1 (W4 m ρ c)
theorem mid_sources : W6 m ρ c (Proc.devRef .tc main_v3) = sources (m ((c.tc : Thread nD τ).loc main_arg1)) :=
  (first_keeps_v3 (W4 m ρ c)).trans (after1_sources m ρ c)
theorem mid_targets : W6 m ρ c (Proc.devRef .tc main_v6) = targets (m ((c.tc : Thread nD τ).loc main_arg1)) :=
  (first_keeps_v6 (W4 m ρ c)).trans (after1_targets m ρ c)
theorem mid_weights : W6 m ρ c (Proc.devRef .tc main_v29) = edgeWeight (F := Ideal) (m ((c.tc : Thread nD τ).loc main_arg1)) :=
  (first_keeps_v29 (W4 m ρ c)).trans (after1_weights m ρ c)

/-! ## After the second region (the rectifier) and the third (the second projection) -/

theorem hidden : (W7 m ρ c (Proc.devRef .tc main_v38) : SN.Idx → EReal)
    = clampBelow (plusRow (aggregate (rowsTimes (m ((c.tc : Thread nD τ).loc main_arg0)) (m ((c.tc : Thread nD τ).loc main_arg2))) (m ((c.tc : Thread nD τ).loc main_arg1)))
        (m ((c.tc : Thread nD τ).loc main_arg3))) := by
  refine (W7_arr m ρ c 2).trans ((rectified (V6 m ρ) c).trans ?_)
  rw [show (V6 m ρ c main_v37 : SN.Idx → EReal) = _ from aggregated1 m ρ c, show V6 m ρ c main_arg3 = _ from mid_arg3 m ρ c]

theorem projected2 : (W8 m ρ c (Proc.devRef .tc main_v39) : SN.Idx → EReal)
    = rowsTimes (clampBelow (plusRow (aggregate (rowsTimes (m ((c.tc : Thread nD τ).loc main_arg0)) (m ((c.tc : Thread nD τ).loc main_arg2))) (m ((c.tc : Thread nD τ).loc main_arg1)))
        (m ((c.tc : Thread nD τ).loc main_arg3)))) (m ((c.tc : Thread nD τ).loc main_arg4)) := by
  refine (W8_arr m ρ c 2).trans ((secondProjection (V7 m ρ) c).trans ?_)
  rw [show (V7 m ρ c main_v38 : SN.Idx → EReal) = _ from hidden m ρ c,
    show V7 m ρ c main_arg4 = _ from (W7_of_ne m ρ c main_arg4 (by decide)).trans (mid_arg4 m ρ c)]

theorem late_sources : W8 m ρ c (Proc.devRef .tc main_v3) = sources (m ((c.tc : Thread nD τ).loc main_arg1)) :=
  (W8_of_ne m ρ c main_v3 (by decide)).trans ((W7_of_ne m ρ c main_v3 (by decide)).trans (mid_sources m ρ c))
theorem late_targets : W8 m ρ c (Proc.devRef .tc main_v6) = targets (m ((c.tc : Thread nD τ).loc main_arg1)) :=
  (W8_of_ne m ρ c main_v6 (by decide)).trans ((W7_of_ne m ρ c main_v6 (by decide)).trans (mid_targets m ρ c))
theorem late_weights : W8 m ρ c (Proc.devRef .tc main_v29) = edgeWeight (F := Ideal) (m ((c.tc : Thread nD τ).loc main_arg1)) :=
  (W8_of_ne m ρ c main_v29 (by decide)).trans ((W7_of_ne m ρ c main_v29 (by decide)).trans (mid_weights m ρ c))
theorem late_arg5 : W8 m ρ c (Proc.devRef .tc main_arg5) = m ((c.tc : Thread nD τ).loc main_arg5) :=
  (W8_of_ne m ρ c main_arg5 (by decide)).trans ((W7_of_ne m ρ c main_arg5 (by decide)).trans (mid_arg5 m ρ c))
theorem late_residual : W8 m ρ c (Proc.devRef .tc main_v30_1) = W4 m ρ c (Proc.devRef .tc main_v30_1) :=
  (W8_of_ne m ρ c main_v30_1 (by decide)).trans ((W7_of_ne m ρ c main_v30_1 (by decide)).trans (mid_residual m ρ c))

/-! ## At the last region's entry: the second aggregation; and the result -/

theorem aggregated2 : (W10 m ρ c (Proc.devRef .tc main_v46) : SN.Idx → EReal)
    = aggregate (rowsTimes (clampBelow (plusRow (aggregate (rowsTimes (m ((c.tc : Thread nD τ).loc main_arg0)) (m ((c.tc : Thread nD τ).loc main_arg2))) (m ((c.tc : Thread nD τ).loc main_arg1)))
        (m ((c.tc : Thread nD τ).loc main_arg3)))) (m ((c.tc : Thread nD τ).loc main_arg4))) (m ((c.tc : Thread nD τ).loc main_arg1)) := by
  refine (second_aggregate (W8 m ρ c)).trans ?_
  rw [late_sources m ρ c, late_targets m ρ c, late_weights m ρ c]
  rw [projected2 m ρ c]
  rfl

/-- The result buffer after the last region: the whole computation of the arguments. -/
theorem result_eq : (W11 m ρ c (Proc.devRef .tc main_v47) : SN.Idx → EReal)
    = kernelOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W11_arr m ρ c 3).trans ((combined (V10 m ρ) c).trans ?_)
  rw [show (V10 m ρ c main_v46 : SN.Idx → EReal) = _ from aggregated2 m ρ c,
    show V10 m ρ c main_arg5 = _ from (second_keeps_arg5 (W8 m ρ c)).trans (late_arg5 m ρ c),
    show (V10 m ρ c main_v30_1 : SN.Idx → EReal) = _ from ((second_keeps_v30_1 (W8 m ρ c)).trans (late_residual m ρ c)).trans (residual m ρ c)]
  rfl

end Cert.KernelIdeal.KernelValue

end
-- ==== Proof.Bridge.lean ====
/-
  The two programs compute one function.

  The reference's result is its operations' composed term of the arguments. Its irregular part — the source and
  target columns, the edge weights, the gather at the wrapped sources, the scaled scatter-add into the targets — is,
  word for word, the arithmetic the kernel program's host stretches do, except that the kernel program's gather
  fills a row with not-a-number where the bounds test of the wrapped index fails. Every source index lies in
  [0, 100000) (the precondition, and the self loops by construction), so the test never fails and the two gathers are
  one. The dense parts agree at the extended reals: a dot_general of the rows with a square matrix is rowsTimes, the
  bias add through two broadcasts is plusRow, the maximum against a zero array is clampBelow.
-/
import proofs.«410912_j29927332118584_1_alg».proof.Proof.RefRun
import proofs.«410912_j29927332118584_1_alg».proof.Proof.RefOps
import proofs.«410912_j29927332118584_1_alg».proof.Proof.KernelValue

noncomputable section

namespace Cert.Bridge

open Idealize.ShloMosaic Idealize.ShloMosaic.TcCoe Idealize.SL.Sem
open Cert.KernelIdeal.HostStretch Cert.KernelIdeal.SourceRange Cert.KernelIdeal.Take Cert.KernelIdeal.KernelValue
open Cert.Spec

section Form
variable {F : FTy → Type} [FloatOps F]

/-- The reference's aggregation: the plain gather at the wrapped sources, scaled and summed as the kernel program's
    host stretches do it. -/
abbrev refAggregate (h : FVec F Cert.KernelIdeal.S100000x64 .f32) (ei : IVec Cert.KernelIdeal.S2x1600000 32) : FVec F Cert.KernelIdeal.S100000x64 .f32 :=
  scatterScaled (F := F) (Host.gather Cert.KernelIdeal.gather_S100000x64_S1700000x1_S1700000x64_1_0_n_n_0_1_164 h (wrapped (sources ei)))
    (targets ei) (edgeWeight (F := F) ei)

/-- A bias row laid under every row, as the reference spells it. -/
abbrev refRows (b : FVec F Cert.ReferenceIdeal.S64 .f32) : FVec F Cert.ReferenceIdeal.S100000x64 .f32 :=
  broadcastInDim Cert.ReferenceIdeal.S100000x64 ![0, 1] Cert.ReferenceIdeal.Facts₀.bcast_S1x64_S100000x64_0_1
    (broadcastInDim Cert.ReferenceIdeal.S1x64 ![1] Cert.ReferenceIdeal.Facts₀.bcast_S64_S1x64_1 b)

/-- The reference's whole computation over its own dense operations. -/
abbrev refForm (x : FVec F Cert.ReferenceIdeal.S100000x64 .f32) (ei : IVec Cert.ReferenceIdeal.S2x1600000 32)
    (W1 : FVec F Cert.ReferenceIdeal.S64x64 .f32) (b1 : FVec F Cert.ReferenceIdeal.S64 .f32)
    (W2 : FVec F Cert.ReferenceIdeal.S64x64 .f32) (b2 : FVec F Cert.ReferenceIdeal.S64 .f32)
    (Wemb : FVec F Cert.ReferenceIdeal.S64x64 .f32) (bemb : FVec F Cert.ReferenceIdeal.S64 .f32) : FVec F Cert.ReferenceIdeal.S100000x64 .f32 :=
  addf
    (addf
      (refAggregate
        (Host.dotGeneral Cert.ReferenceIdeal.dot_S100000x64_S64x64_S100000x64_1_0_0_1_n_n none
          (maximumf
            (addf (refAggregate (Host.dotGeneral Cert.ReferenceIdeal.dot_S100000x64_S64x64_S100000x64_1_0_0_1_n_n none x W1) ei) (refRows b1))
            (broadcastInDim Cert.ReferenceIdeal.S100000x64 ![] Cert.ReferenceIdeal.Facts₀.bcast_S_S100000x64 (constant Cert.ReferenceIdeal.S_ .f32 0x00000000#32)))
          W2)
        ei)
      (refRows b2))
    (addf (Host.dotGeneral Cert.ReferenceIdeal.dot_S100000x64_S64x64_S100000x64_1_0_0_1_n_n none x Wemb) (refRows bemb))

set_option maxRecDepth 65536 in
set_option maxHeartbeats 4000000 in
/-- The reference's composed term is that computation of its arguments: the same operations, written once. -/
theorem res_form (m' : (ℓ : Loc Cert.ReferenceIdeal.nD Cert.ReferenceIdeal.τ Cert.ReferenceIdeal.sig) → Buf (Elt F) ℓ) (c : Dev Cert.ReferenceIdeal.nD) :
    Cert.ReferenceIdeal.ValueP.res_main_v92 (F := F) m' c
      = refForm (F := F) (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  unfold Cert.ReferenceIdeal.ValueP.res_main_v92
  rfl

end Form

/-- Where every source index lies in [0, 100000) the reference's aggregation is the kernel program's. -/
theorem refAggregate_eq (h : SN.Idx → EReal) (ei : IVec Cert.KernelIdeal.S2x1600000 32)
    (hs : ∀ e, 0 ≤ (sources ei e).toInt ∧ (sources ei e).toInt < 100000) :
    refAggregate (F := Ideal) h ei = aggregate h ei := by
  unfold aggregate takeFilled
  rw [take_eq_gather (F := Ideal) h (sources ei) hs]

/-- At the extended reals, under the range of the source indices, the reference's computation is the kernel program's. -/
theorem refForm_eq (x : SN.Idx → EReal) (ei : IVec Cert.KernelIdeal.S2x1600000 32) (W1 : SW.Idx → EReal) (b1 : SB.Idx → EReal)
    (W2 : SW.Idx → EReal) (b2 : SB.Idx → EReal) (Wemb : SW.Idx → EReal) (bemb : SB.Idx → EReal)
    (hs : ∀ e, 0 ≤ (sources ei e).toInt ∧ (sources ei e).toInt < 100000) :
    (refForm (F := Ideal) x ei W1 b1 W2 b2 Wemb bemb : SN.Idx → EReal) = kernelOut x ei W1 b1 W2 b2 Wemb bemb := by
  have d1 := Cert.ReferenceIdeal.RefOps.dot_eq x W1
  have a1 := refAggregate_eq (rowsTimes x W1) ei hs
  have r1 := Cert.ReferenceIdeal.RefOps.addRow_eq (aggregate (rowsTimes x W1) ei) b1
  have c1 := Cert.ReferenceIdeal.RefOps.relu_eq (plusRow (aggregate (rowsTimes x W1) ei) b1)
  have d2 := Cert.ReferenceIdeal.RefOps.dot_eq (clampBelow (plusRow (aggregate (rowsTimes x W1) ei) b1)) W2
  have a2 := refAggregate_eq (rowsTimes (clampBelow (plusRow (aggregate (rowsTimes x W1) ei) b1)) W2) ei hs
  have r2 := Cert.ReferenceIdeal.RefOps.addRow_eq (aggregate (rowsTimes (clampBelow (plusRow (aggregate (rowsTimes x W1) ei) b1)) W2) ei) b2
  have d3 := Cert.ReferenceIdeal.RefOps.dot_eq x Wemb
  have r3 := Cert.ReferenceIdeal.RefOps.addRow_eq (rowsTimes x Wemb) bemb
  unfold refForm kernelOut
  rw [d1, a1, r1, c1, d2, a2, r2, d3, r3]
  rfl

end Cert.Bridge

end
-- ==== Proof.lean ====
/-
  A two-layer graph convolution with a residual projection: the kernel program runs its three matrix products, its
  bias-and-rectifier and its final sum as four tiled regions between stretches of host arithmetic (degrees, edge
  weights, gather and scatter-add along the edge list); the reference does everything with host operations.

  Frames: the generated frame certificates for the two kernel programs; the reference has no kernel, so its frame is its
  run with the result dropped. The idealization rewrote nothing, so `preserves` asks nothing.

  The equivalence: the kernel program's result buffer ends at one function of the arguments (Proof/KernelValue.lean:
  every region's array after the run is a whole-array function of the arrays it was entered at, every stretch its own
  arithmetic), the reference's at its operations' composed term, and under the precondition — every source index of
  the edge table in [0, 100000), so that the kernel program's filled gather is the reference's plain gather — the two
  are equal at the extended reals (Proof/Bridge.lean).
-/
import proofs.«410912_j29927332118584_1_alg».proof.Defs
import proofs.«410912_j29927332118584_1_alg».proof.Proof.Gen.Kernel
import proofs.«410912_j29927332118584_1_alg».proof.Proof.Gen.Kernel.Skeleton
import proofs.«410912_j29927332118584_1_alg».proof.Proof.Gen.Kernel.Launch
import proofs.«410912_j29927332118584_1_alg».proof.Proof.Gen.Kernel.Points
import proofs.«410912_j29927332118584_1_alg».proof.Proof.Gen.Kernel.Frame
import proofs.«410912_j29927332118584_1_alg».proof.Proof.Gen.KernelIdeal
import proofs.«410912_j29927332118584_1_alg».proof.Proof.Gen.KernelIdeal.Skeleton
import proofs.«410912_j29927332118584_1_alg».proof.Proof.Gen.KernelIdeal.Launch
import proofs.«410912_j29927332118584_1_alg».proof.Proof.Gen.KernelIdeal.Points
import proofs.«410912_j29927332118584_1_alg».proof.Proof.Gen.KernelIdeal.Frame
import proofs.«410912_j29927332118584_1_alg».proof.Proof.Gen.ReferenceIdeal
import proofs.«410912_j29927332118584_1_alg».proof.Proof.Gen.Pre_finite_inputs
import proofs.«410912_j29927332118584_1_alg».proof.Proof.KernelRun
import proofs.«410912_j29927332118584_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the same result: the kernel program's buffer at the one function of its arguments, the
    reference's composed term equal to it once the arguments agree and the source indices are in range. -/
theorem algebraic : Cert.algebraic_KernelIdeal_ReferenceIdeal := by
  intro m ρ m' ρ' hpre hagree
  refine ⟨fun c => Cert.KernelIdeal.KernelValue.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.result_eq m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Bridge.res_form, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.Bridge.refForm_eq _ _ _ _ _ _ _ _ (fun e => Cert.KernelIdeal.SourceRange.sources_in_range m hpre c e)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
